-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32768x64 : Shape := ⟨3, ![16, 32768, 64]⟩
abbrev S16x32768 : Shape := ⟨2, ![16, 32768]⟩
abbrev S64x128 : Shape := ⟨2, ![64, 128]⟩
abbrev S64 : Shape := ⟨1, ![64]⟩
abbrev S_ : Shape := ⟨0, ![]⟩

class Facts : Prop where
  bcast_S_S16x32768x64 : S_.BroadcastsInDim S16x32768x64 (![] : Fin 0 → Fin S16x32768x64.rank)
  reducesTo_S16x32768x64_S_d0_1_2 : S16x32768x64.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S16x32768 : S_.BroadcastsInDim S16x32768 (![] : Fin 0 → Fin S16x32768.rank)
  reducesTo_S16x32768_S_d0_1 : S16x32768.ReducesTo [0, 1] S_

variable [Facts]

def fn_part1 {F : FTy → Type} [FloatOps F] (main_arg1 : IVec S16x32768 32) (main_v13 : IVec S_ 1) (main_v15 : IVec S16x32768 1) (main_c_5 : IVec S_ 32) : IVec S_ 1 :=
  let main_v16 : IVec S16x32768 32 := broadcastInDim S16x32768 ![] bcast_S_S16x32768 main_c_5
  let main_v17 : IVec S16x32768 1 := cmpi .slt main_arg1 main_v16
  let main_v18 : IVec S16x32768 1 := andi main_v15 main_v17
  let main_c_6 : IVec S_ 1 := constantI S_ 1 1#1
  let main_v19 : IVec S_ 1 := (fun x v => Host.reduce IntOp.andi x v reducesTo_S16x32768_S_d0_1 h_S_) main_v18 main_c_6
  let main_v20 : IVec S_ 1 := andi main_v13 main_v19
  main_v20

def fn {F : FTy → Type} [FloatOps F] (main_arg0 : FVec F S16x32768x64 .f32) (main_arg1 : IVec S16x32768 32) (main_arg2 : FVec F S64x128 .f32) (main_arg3 : FVec F S64 .f32) : IVec S_ 1 :=
  let main_v0 : FVec F S16x32768x64 .f32 := Host.absf main_arg0
  let main_cst : FVec F S_ .f32 := constant S_ .f32 0x7F800000#32
  let main_v1 : FVec F S16x32768x64 .f32 := broadcastInDim S16x32768x64 ![] bcast_S_S16x32768x64 main_cst
  let main_v2 : IVec S16x32768x64 1 := cmpf .olt main_v0 main_v1
  let main_c : IVec S_ 1 := constantI S_ 1 1#1
  let main_v3 : IVec S_ 1 := (fun x v => Host.reduce IntOp.andi x v reducesTo_S16x32768x64_S_d0_1_2 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S16x32768 32 := broadcastInDim S16x32768 ![] bcast_S_S16x32768 main_c_4
  let main_v15 : IVec S16x32768 1 := cmpi .sge main_arg1 main_v14
  let main_c_5 : IVec S_ 32 := constantI S_ 32 128#32
  fn_part1 (F := F) main_arg1 main_v13 main_v15 main_c_5
-- ==== Kernel.lean ====
abbrev S16x32768x64 : Shape := ⟨3, ![16, 32768, 64]⟩
abbrev S16x32768 : Shape := ⟨2, ![16, 32768]⟩
abbrev S64x128 : Shape := ⟨2, ![64, 128]⟩
abbrev S64 : Shape := ⟨1, ![64]⟩
abbrev S128x64 : Shape := ⟨2, ![128, 64]⟩
abbrev S1x64 : Shape := ⟨2, ![1, 64]⟩
abbrev S16x32768x128 : Shape := ⟨3, ![16, 32768, 128]⟩
abbrev S16x1024x64 : Shape := ⟨3, ![16, 1024, 64]⟩
abbrev S16x1024 : Shape := ⟨2, ![16, 1024]⟩
abbrev S16x1024x128 : Shape := ⟨3, ![16, 1024, 128]⟩
abbrev S1x1x128 : Shape := ⟨3, ![1, 1, 128]⟩
abbrev S1x1x64 : Shape := ⟨3, ![1, 1, 64]⟩
abbrev S16x128 : Shape := ⟨2, ![16, 128]⟩
abbrev S16x128x1 : Shape := ⟨3, ![16, 128, 1]⟩
abbrev S16x128x128 : Shape := ⟨3, ![16, 128, 128]⟩
abbrev S2048x128 : Shape := ⟨2, ![2048, 128]⟩
abbrev S2048x64 : Shape := ⟨2, ![2048, 64]⟩
abbrev S16x128x64 : Shape := ⟨3, ![16, 128, 64]⟩

abbrev nBuf : Space → Nat
  | .hbm => 11
  | .vmem => 9
  | .smem => 0
  | _ => 0

abbrev bufTy : (tb : Table) → Fin (tcTables nBuf tb) → BufTy
  | .hbm, ⟨0, _⟩ => ⟨S16x32768x64, .f32⟩
  | .hbm, ⟨1, _⟩ => ⟨S16x32768, .i32⟩
  | .hbm, ⟨2, _⟩ => ⟨S64x128, .f32⟩
  | .hbm, ⟨3, _⟩ => ⟨S64, .f32⟩
  | .hbm, ⟨4, _⟩ => ⟨S128x64, .f32⟩
  | .hbm, ⟨5, _⟩ => ⟨S128x64, .bf16⟩
  | .hbm, ⟨6, _⟩ => ⟨S128x64, .f32⟩
  | .hbm, ⟨7, _⟩ => ⟨S128x64, .f32⟩
  | .hbm, ⟨8, _⟩ => ⟨S128x64, .bf16⟩
  | .hbm, ⟨9, _⟩ => ⟨S1x64, .f32⟩
  | .hbm, ⟨10, _⟩ => ⟨S16x32768x128, .f32⟩
  | .local _ .vmem, ⟨0, _⟩ => ⟨S16x1024x64, .f32⟩
  | .local _ .vmem, ⟨1, _⟩ => ⟨S16x1024x64, .f32⟩
  | .local _ .vmem, ⟨2, _⟩ => ⟨S16x1024, .i32⟩
  | .local _ .vmem, ⟨3, _⟩ => ⟨S16x1024, .i32⟩
  | .local _ .vmem, ⟨4, _⟩ => ⟨S128x64, .bf16⟩
  | .local _ .vmem, ⟨5, _⟩ => ⟨S128x64, .bf16⟩
  | .local _ .vmem, ⟨6, _⟩ => ⟨S1x64, .f32⟩
  | .local _ .vmem, ⟨7, _⟩ => ⟨S16x1024x128, .f32⟩
  | .local _ .vmem, ⟨8, _⟩ => ⟨S16x1024x128, .f32⟩
  | _, _ => ⟨S16x32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  v5
def k0_off1 (k0_t1 : Fin k0_t1_loop.trips) : Fin 2 → Nat :=
  let c0_2 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v7 : Index := Scalar.indexCast v6
  ![0, v7.toNat]
def k0_off2 (k0_t1 : Fin k0_t1_loop.trips) : Fin 3 → Nat :=
  let c0_8 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v27 : Index := Scalar.indexCast v6
  let c64 : Index := 64#32
  ![0, v27.toNat, 64]
def k0_off3 (k0_t1 : Fin k0_t1_loop.trips) : Fin 3 → Nat :=
  let c0_9 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v29 : Index := Scalar.indexCast v6
  let c0_10 : Index := 0#32
  ![0, v29.toNat, 0]
def k0_off4 (k0_t1 : Fin k0_t1_loop.trips) : Fin 3 → Nat :=
  let c0_11 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v31 : Index := Scalar.indexCast v6
  let c0_12 : Index := 0#32
  ![0, v31.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x128_S128x64_1_0 : S64x128.Transposes [1, 0] S128x64
  bitsLt_bf16_f32 : FTy.bits .bf16 < FTy.bits .f32
  shapeCasts_S64_S1x64 : S64.ShapeCasts S1x64
  iota_S1x1x128_d2_w32 : S1x1x128.Iotas .tc 32 [2]
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  h_S16x128 : 0 < S16x128.numel
  shapeCasts_S16x128_S16x128x1 : S16x128.ShapeCasts S16x128x1
  broadcasts_S16x128x1_S16x128x128 : S16x128x1.Broadcasts S16x128x128
  broadcasts_S1x1x128_S16x128x128 : S1x1x128.Broadcasts S16x128x128
  natLt_1_32 : 1 < 32
  shapeCasts_S16x128x128_S2048x128 : S16x128x128.ShapeCasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S2048x64_S16x128x64 : S2048x64.ShapeCasts S16x128x64
  broadcasts_S1x1x64_S16x128x64 : S1x1x64.Broadcasts S16x128x64
  h_S16x128x64 : 0 < S16x128x64.numel
  dot_S2048x128_S128x64_S2048x64_1_0_0_1_n_n_wf : DotDims.WF S2048x128 S128x64 S2048x64 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S16x128.size a ≤ S16x1024.size a
  k0_off2_inb : ∀ k0_t1 : Fin k0_t1_loop.trips, ∀ a, (k0_off2 k0_t1) a + S16x128x64.size a ≤ S16x1024x128.size a
  k0_off3_inb : ∀ k0_t1 : Fin k0_t1_loop.trips, ∀ a, (k0_off3 k0_t1) a + S16x128x64.size a ≤ S16x1024x64.size a
  k0_off4_inb : ∀ k0_t1 : Fin k0_t1_loop.trips, ∀ a, (k0_off4 k0_t1) a + S16x128x64.size a ≤ S16x1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x64.size a ≤ S16x32768x64.size a
  hwx0_0 : ∀ i : grid0.Coords, EltTy.bits .f32 = 32 ∨ (Rect.block (s := S16x32768x64) S16x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x32768.size a
  hwx0_1 : ∀ i : grid0.Coords, EltTy.bits .i32 = 32 ∨ (Rect.block (s := S16x32768) S16x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1024x128.size a ≤ S16x32768x128.size a
  hwx0_5 : ∀ i : grid0.Coords, EltTy.bits .f32 = 32 ∨ (Rect.block (s := S16x32768x128) S16x1024x128.size (cc0_transform_5 i) (hinb0_5 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

abbrev win0_0 : Pipeline.Window sig grid0 :=
  Pipeline.Window.ofSpec (Memref.whole main_arg0) S16x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S16x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x32768x64 : Shape := ⟨3, ![16, 32768, 64]⟩
abbrev S16x32768 : Shape := ⟨2, ![16, 32768]⟩
abbrev S64x128 : Shape := ⟨2, ![64, 128]⟩
abbrev S64 : Shape := ⟨1, ![64]⟩
abbrev S128x64 : Shape := ⟨2, ![128, 64]⟩
abbrev S_ : Shape := ⟨0, ![]⟩
abbrev S16x32768x1 : Shape := ⟨3, ![16, 32768, 1]⟩
abbrev S1 : Shape := ⟨1, ![1]⟩
abbrev S1x1x1 : Shape := ⟨3, ![1, 1, 1]⟩
abbrev S1x1x64 : Shape := ⟨3, ![1, 1, 64]⟩
abbrev S16x32768x128 : Shape := ⟨3, ![16, 32768, 128]⟩

abbrev nBuf : Space → Nat
  | .hbm => 32
  | .vmem => 0
  | .smem => 0
  | _ => 0

abbrev bufTy : (tb : Table) → Fin (tcTables nBuf tb) → BufTy
  | .hbm, ⟨0, _⟩ => ⟨S16x32768x64, .f32⟩
  | .hbm, ⟨1, _⟩ => ⟨S16x32768, .i32⟩
  | .hbm, ⟨2, _⟩ => ⟨S64x128, .f32⟩
  | .hbm, ⟨3, _⟩ => ⟨S64, .f32⟩
  | .hbm, ⟨4, _⟩ => ⟨S128x64, .f32⟩
  | .hbm, ⟨5, _⟩ => ⟨S_, .i32⟩
  | .hbm, ⟨6, _⟩ => ⟨S16x32768, .i32⟩
  | .hbm, ⟨7, _⟩ => ⟨S16x32768, .i1⟩
  | .hbm, ⟨8, _⟩ => ⟨S_, .i32⟩
  | .hbm, ⟨9, _⟩ => ⟨S16x32768, .i32⟩
  | .hbm, ⟨10, _⟩ => ⟨S16x32768, .i32⟩
  | .hbm, ⟨11, _⟩ => ⟨S16x32768, .i32⟩
  | .hbm, ⟨12, _⟩ => ⟨S16x32768x1, .i32⟩
  | .hbm, ⟨13, _⟩ => ⟨S1, .i32⟩
  | .hbm, ⟨14, _⟩ => ⟨S_, .i32⟩
  | .hbm, ⟨15, _⟩ => ⟨S16x32768x1, .i32⟩
  | .hbm, ⟨16, _⟩ => ⟨S16x32768x1, .i1⟩
  | .hbm, ⟨17, _⟩ => ⟨S1x1x1, .i32⟩
  | .hbm, ⟨18, _⟩ => ⟨S16x32768x1, .i32⟩
  | .hbm, ⟨19, _⟩ => ⟨S16x32768x1, .i1⟩
  | .hbm, ⟨20, _⟩ => ⟨S16x32768x1, .i1⟩
  | .hbm, ⟨21, _⟩ => ⟨S_, .i1⟩
  | .hbm, ⟨22, _⟩ => ⟨S16x32768, .i1⟩
  | .hbm, ⟨23, _⟩ => ⟨S16x32768x64, .f32⟩
  | .hbm, ⟨24, _⟩ => ⟨S16x32768x64, .i1⟩
  | .hbm, ⟨25, _⟩ => ⟨S_, .f32⟩
  | .hbm, ⟨26, _⟩ => ⟨S16x32768x64, .f32⟩
  | .hbm, ⟨27, _⟩ => ⟨S16x32768x64, .f32⟩
  | .hbm, ⟨28, _⟩ => ⟨S1x1x64, .f32⟩
  | .hbm, ⟨29, _⟩ => ⟨S16x32768x64, .f32⟩
  | .hbm, ⟨30, _⟩ => ⟨S16x32768x64, .f32⟩
  | .hbm, ⟨31, _⟩ => ⟨S16x32768x128, .f32⟩
  | _, _ => ⟨S16x32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]

class Facts₀ : Prop where
  transposes_S64x128_S128x64_1_0 : S64x128.Transposes [1, 0] S128x64
  bcast_S_S16x32768 : S_.BroadcastsInDim S16x32768 (![] : Fin 0 → Fin S16x32768.rank)
  bcast_S16x32768_S16x32768x1_0_1 : S16x32768.BroadcastsInDim S16x32768x1 (![0, 1] : Fin 2 → Fin S16x32768x1.rank)
  bcast_S_S16x32768x1 : S_.BroadcastsInDim S16x32768x1 (![] : Fin 0 → Fin S16x32768x1.rank)
  bcast_S1_S1x1x1_2 : S1.BroadcastsInDim S1x1x1 (![2] : Fin 1 → Fin S1x1x1.rank)
  bcast_S1x1x1_S16x32768x1_0_1_2 : S1x1x1.BroadcastsInDim S16x32768x1 (![0, 1, 2] : Fin 3 → Fin S16x32768x1.rank)
  reducesTo_S16x32768x1_S16x32768_d2 : S16x32768x1.ReducesTo [2] S16x32768
  h_S_ : 0 < S_.numel
  bcast_S16x32768_S16x32768x64_0_1 : S16x32768.BroadcastsInDim S16x32768x64 (![0, 1] : Fin 2 → Fin S16x32768x64.rank)
  bcast_S_S16x32768x64 : S_.BroadcastsInDim S16x32768x64 (![] : Fin 0 → Fin S16x32768x64.rank)
  bcast_S64_S1x1x64_2 : S64.BroadcastsInDim S1x1x64 (![2] : Fin 1 → Fin S1x1x64.rank)
  bcast_S1x1x64_S16x32768x64_0_1_2 : S1x1x64.BroadcastsInDim S16x32768x64 (![0, 1, 2] : Fin 3 → Fin S16x32768x64.rank)
  concatenates_S16x32768x64_S16x32768x64_S16x32768x128_d2 : Shape.Concatenates [S16x32768x64, S16x32768x64] S16x32768x128 2
  gather_S128x64_S16x32768x1_S16x32768x64_2_0_n_n_0_2_164_wf : GatherDims.WF S128x64 S16x32768x1 S16x32768x64 [2] [0] [] [0] [] 2 ![1, 64]

variable [Facts₀]

def gather_S128x64_S16x32768x1_S16x32768x64_2_0_n_n_0_2_164 : GatherDims S128x64 S16x32768x1 S16x32768x64 where
  offsetDims := [2]
  collapsedSliceDims := [0]
  operandBatchingDims := []
  startIndicesBatchingDims := []
  startIndexMap := [0]
  indexVectorDim := 2
  sliceSizes := ![1, 64]
  wf := gather_S128x64_S16x32768x1_S16x32768x64_2_0_n_n_0_2_164_wf

class Facts : Prop extends Facts₀ where

variable [Facts]
-- ==== Proof.LibOneHot.lean ====
/-
  A table lookup written as a product with a one-hot row.

  Row `w` of a table with `n` rows, for a 32-bit word `w` below `n`, is the sum over all rows `q` of the row times
  the indicator `[q = w]`, the indicator being the comparison bit widened to 32 bits and converted to a float
  (`1` or `0` exactly). On the extended reals `0 · x = 0` and `1 · x = x` whatever `x` is, so nothing is asked of
  the table's entries.
-/
import Idealize.ShloMosaic.PureOps.Ideal
import Mathlib.Algebra.BigOperators.Fin

noncomputable section

namespace Cert.LibOneHot

open Idealize.ShloMosaic

/-- The indicator bit as a float: one where the words agree. -/
theorem indicator_eq (x w : BitVec 32) (h : x = w) :
    FloatOps.sitofp (F := Ideal) .f32 ((IntOp.cmpi .eq x w).setWidth 32) = 1 := by
  subst h
  show (((((IntOp.cmpi .eq x x).setWidth 32).toInt : ℝ)) : EReal) = 1
  have : (IntOp.cmpi .eq x x).setWidth 32 = 1#32 := by
    unfold IntOp.cmpi; simp
  rw [this]; norm_num

/-- … and zero where they differ. -/
theorem indicator_ne (x w : BitVec 32) (h : x ≠ w) :
    FloatOps.sitofp (F := Ideal) .f32 ((IntOp.cmpi .eq x w).setWidth 32) = 0 := by
  show (((((IntOp.cmpi .eq x w).setWidth 32).toInt : ℝ)) : EReal) = 0
  have hb : (x == w) = false := by simpa using h
  have : (IntOp.cmpi .eq x w).setWidth 32 = 0#32 := by
    unfold IntOp.cmpi; rw [hb]; rfl
  rw [this]; norm_num

/-- The product with the one-hot row picks the row. -/
theorem sum_onehot {n : Nat} (hn : n ≤ 2 ^ 32) (w : BitVec 32) (hw : w.toNat < n) (g : Fin n → EReal) :
    ∑ q : Fin n, FloatOps.sitofp (F := Ideal) .f32 ((IntOp.cmpi .eq (BitVec.ofNat 32 q.val) w).setWidth 32) * g q
      = g ⟨w.toNat, hw⟩ := by
  rw [Finset.sum_eq_single (⟨w.toNat, hw⟩ : Fin n)]
  · rw [indicator_eq _ _ (by simp), one_mul]
  · intro q _ hq
    rw [indicator_ne _ _ ?_, zero_mul]
    intro h
    apply hq
    apply Fin.ext
    have := congrArg BitVec.toNat h
    simp only [BitVec.toNat_ofNat] at this
    rw [Nat.mod_eq_of_lt (lt_of_lt_of_le q.isLt hn)] at this
    exact this
  · intro h; exact absurd (Finset.mem_univ _) h

end Cert.LibOneHot

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.KPay.lean ====
/-
  The value one loop trip stores in the high half of its rows, read at an index.

  The ids of a `[16, 128]` block are compared with the lane numbers `0 … 127`; the comparison bits, widened and
  converted, are a `[2048, 128]` matrix whose row `128·p + r` holds a single one, at the column the id `(p, r)`
  names. Its products with the two `[128, 64]` tables therefore pick that row of each table; their sum is viewed
  `[16, 128, 64]` again (row-major: row `128·p + r` is `(p, r)`) and the bias row is added to every row.
-/
import proofs.«409436_j45595372815055_3_alg».proof.Proof.Gen.KernelIdeal.Skeleton
import proofs.«409436_j45595372815055_3_alg».proof.Proof.LibOneHot
import proofs.«409436_j45595372815055_3_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The row of the flattened `[2048, ·]` matrices that holds row `(p, r)` of a `[16, 128, ·]` array. -/
abbrev row (p : Fin 16) (r : Fin 128) : Fin 2048 := ⟨128 * p.val + r.val, by omega⟩

/-- Equality of words is symmetric, so the comparison bit does not depend on the order of its operands. -/
theorem cmpi_eq_comm (x y : BitVec 32) : IntOp.cmpi .eq x y = IntOp.cmpi .eq y x := by
  unfold IntOp.cmpi
  exact congrArg BitVec.ofBool (Bool.beq_comm)

/-- The ids with a unit axis added and broadcast along it read, at `(p, r, k)`, the id `(p, r)`. -/
theorem ids_apply (v8 : IVec S16x128 32) (h1 : S16x128.ShapeCasts S16x128x1) (h2 : S16x128x1.Broadcasts S16x128x128)
    (p : Fin 16) (r : Fin 128) (k : Fin 128) :
    broadcastTo S16x128x128 (shapeCast S16x128x1 v8 h1) h2 (ix3 p r k) = v8 (ix2 p r) := by
  refine (broadcastTo_apply _ h2 (ix3 p r k) (ix3 p r (0 : Fin 1)) fun a => ?_).trans ?_
  · match a with
    | ⟨0, _⟩ => rfl
    | ⟨1, _⟩ => rfl
    | ⟨2, _⟩ => rfl
  · refine shapeCast_apply v8 h1 (ix3 p r (0 : Fin 1)) (ix2 p r) ?_
    rw [Shape.rowMajor_val_three, Shape.rowMajor_val_two]
    show p.val * 128 + r.val = (p.val * 128 + r.val) * 1 + 0
    omega

/-- The lane numbers broadcast over the block read, at `(p, r, k)`, the word `k`. -/
theorem lanes_apply (h3 : S1x1x128.Iotas .tc 32 [2]) (h4 : S1x1x128.Broadcasts S16x128x128)
    (p : Fin 16) (r : Fin 128) (k : Fin 128) :
    broadcastTo S16x128x128 (iota .tc S1x1x128 32 [2] h3) h4 (ix3 p r k) = BitVec.ofNat 32 k.val := by
  refine (broadcastTo_apply _ h4 (ix3 p r k) (ix3 (0 : Fin 1) (0 : Fin 1) k) fun a => ?_).trans ?_
  · match a with
    | ⟨0, _⟩ => rfl
    | ⟨1, _⟩ => rfl
    | ⟨2, _⟩ => rfl
  · exact iota_single_apply .tc S1x1x128 32 2 h3 (ix3 (0 : Fin 1) (0 : Fin 1) k)

/-- The one-hot matrix's entry at row `128·p + r`, column `k`: the indicator that the id `(p, r)` is `k`. -/
theorem onehot_apply (v8 : IVec S16x128 32) (h1 : S16x128.ShapeCasts S16x128x1) (h2 : S16x128x1.Broadcasts S16x128x128)
    (h3 : S1x1x128.Iotas .tc 32 [2]) (h4 : S1x1x128.Broadcasts S16x128x128) (h5 : 1 < 32)
    (h6 : FTy.bits .bf16 < FTy.bits .f32) (h7 : S16x128x128.ShapeCasts S2048x128)
    (p : Fin 16) (r : Fin 128) (k : Fin 128) :
    shapeCast S2048x128
        (truncf (F := Ideal) .bf16
          (sitofp .f32
            (extui 32
              (cmpi .eq (broadcastTo S16x128x128 (shapeCast S16x128x1 v8 h1) h2)
                (broadcastTo S16x128x128 (iota .tc S1x1x128 32 [2] h3) h4))
              h5))
          h6)
        h7 (ix2 (row p r) k)
      = FloatOps.sitofp (F := Ideal) .f32 ((IntOp.cmpi .eq (BitVec.ofNat 32 k.val) (v8 (ix2 p r))).setWidth 32) := by
  refine (shapeCast_apply _ h7 (ix2 (row p r) k) (ix3 p r k) ?_).trans ?_
  · rw [Shape.rowMajor_val_three, Shape.rowMajor_val_two]
    show (p.val * 128 + r.val) * 128 + k.val = (128 * p.val + r.val) * 128 + k.val
    omega
  · show FloatOps.sitofp (F := Ideal) .f32
        ((IntOp.cmpi .eq (broadcastTo S16x128x128 (shapeCast S16x128x1 v8 h1) h2 (ix3 p r k))
          (broadcastTo S16x128x128 (iota .tc S1x1x128 32 [2] h3) h4 (ix3 p r k))).setWidth 32) = _
    rw [ids_apply, lanes_apply, cmpi_eq_comm]

/-- A product of a matrix whose row `a` is the indicator of the word `w` with a table, at `(a, e)`: the table's
    row `w`. -/
theorem dot_row_apply (l : FVec Ideal S2048x128 .bf16) (t : FVec Ideal S128x64 .bf16) (h8 : S128x64.ShapeCasts S128x64)
    (a : Fin 2048) (e : Fin 64) (w : BitVec 32) (hw : w.toNat < 128)
    (hl : ∀ k : Fin 128, l (ix2 a k)
      = FloatOps.sitofp (F := Ideal) .f32 ((IntOp.cmpi .eq (BitVec.ofNat 32 k.val) w).setWidth 32)) :
    matmul dot_S2048x128_S128x64_S2048x64_1_0_0_1_n_n none l (shapeCast S128x64 t h8)
        (constant S2048x64 .f32 0x00000000#32) (ix2 a e)
      = t (ix2 (⟨w.toNat, hw⟩ : Fin 128) e) := by
  rw [shapeCast_self]
  refine (Cert.LibDot.matmul_plain_apply dot_S2048x128_S128x64_S2048x64_1_0_0_1_n_n rfl rfl rfl rfl rfl rfl none l t a e).trans ?_
  rw [Finset.sum_congr rfl fun k _ => congrArg (· * t (ix2 k e)) (hl k)]
  exact Cert.LibOneHot.sum_onehot (by norm_num) w hw fun q => t (ix2 q e)

/-- The bias row, with a unit axis added and broadcast over the block, reads at `(p, r, e)` its entry `e`. -/
theorem bias_apply (v1 : FVec Ideal S1x64 .f32) (g1 : S1x64.ShapeCasts S1x64) (g2 : S1x64.ShapeCasts S1x1x64)
    (g3 : S1x1x64.Broadcasts S16x128x64) (p : Fin 16) (r : Fin 128) (e : Fin 64) :
    broadcastTo S16x128x64 (shapeCast S1x1x64 (shapeCast S1x64 v1 g1) g2) g3 (ix3 p r e) = v1 (ix2 (0 : Fin 1) e) := by
  rw [shapeCast_self]
  refine (broadcastTo_apply _ g3 (ix3 p r e) (ix3 (0 : Fin 1) (0 : Fin 1) e) fun a => ?_).trans ?_
  · match a with
    | ⟨0, _⟩ => rfl
    | ⟨1, _⟩ => rfl
    | ⟨2, _⟩ => rfl
  · exact shapeCast_ab_1ab_apply v1 g2 (0 : Fin 1) (0 : Fin 1) e

/-- A `[2048, 64]` matrix viewed `[16, 128, 64]` reads, at `(p, r, e)`, its row `128·p + r`. -/
theorem unflatten_apply (x : FVec Ideal S2048x64 .f32) (g : S2048x64.ShapeCasts S16x128x64)
    (p : Fin 16) (r : Fin 128) (e : Fin 64) :
    shapeCast S16x128x64 x g (ix3 p r e) = x (ix2 (row p r) e) := by
  refine shapeCast_apply x g (ix3 p r e) (ix2 (row p r) e) ?_
  rw [Shape.rowMajor_val_three, Shape.rowMajor_val_two]
  show (128 * p.val + r.val) * 64 + e.val = (p.val * 128 + r.val) * 64 + e.val
  omega

/-- Row `(p, r)` of a trip's stored value, column `e`: the two table halves at the row the id selects, plus the bias. -/
theorem pay_apply (v1 : FVec Ideal S1x64 .f32) (v8 : IVec S16x128 32) (v17 v20 : FVec Ideal S128x64 .bf16)
    (p : Fin 16) (r : Fin 128) (e : Fin 64) (h : (v8 (ix2 p r)).toNat < 128) :
    k0_pay1 (F := Ideal) v1 v8 v17 v20 (ix3 p r e)
      = (v17 (ix2 (⟨(v8 (ix2 p r)).toNat, h⟩ : Fin 128) e) + v20 (ix2 (⟨(v8 (ix2 p r)).toNat, h⟩ : Fin 128) e)) + v1 (ix2 (0 : Fin 1) e) := by
  unfold k0_pay1
  rw [addf_apply, bias_apply, unflatten_apply, addf_apply]
  rw [dot_row_apply _ v17 _ (row p r) e (v8 (ix2 p r)) h fun k => onehot_apply v8 _ _ _ _ _ _ _ p r k,
    dot_row_apply _ v20 _ (row p r) e (v8 (ix2 p r)) h fun k => onehot_apply v8 _ _ _ _ _ _ _ p r k]

end Cert.KernelIdeal.Pay

end
-- ==== Proof.LibGatherRow.lean ====
import Idealize.ShloMosaic.Lib.ValueIdx

/-!
  A gather of whole rows of a table, read at an index.

  `table[ids]` over a table `[N, C]` prints as a gather whose one collapsed and start-indexed operand axis is the row
  axis (collapsed_slice_dims `[0]`, start_index_map `[0]`, slice_sizes `[1, C]`), whose one offset axis is the result's
  last and whose index vector lies on the start indices' last axis, of extent one. Result element `(…, c)` is the
  table's at `(row, c)`, `row` the start index read as a signed integer and clamped into `[0, N − 1]`: a negative
  index reads row 0, one past the end reads the last row. Stated for an arbitrary record of dimension numbers whose
  lists are the ones above (each hypothesis holds by `rfl` on a written record), at start indices `[R, K, 1]`
  (`gather_row3`) and `[R, 1]` (`gather_row2`), every extent a variable.
-/

namespace Cert.LibGatherRow

open Idealize.ShloMosaic Idealize.ShloMosaic.ValueIdx

variable {α : Type}

/-- The row of a table of `N` rows a start index selects: the index as a signed integer, clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) :
    (clampRow N hN v).val = min v.toInt.toNat (N - 1) := rfl

/-- Start indices `[R, K, 1]`, result `[R, K, C]`: element `(b, k, e)` is the table's at the row `idx[b, k, 0]` selects, column `e`. -/
theorem gather_row3 {N C R K w : Nat} (hN : 0 < N)
    (d : GatherDims ⟨2, ![N, C]⟩ ⟨3, ![R, K, 1]⟩ ⟨3, ![R, K, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![R, K, 1]⟩ w) (b : Fin R) (k : Fin K) (e : Fin C) :
    Host.gather d x idx (ix3 b k e) = x (ix2 (clampRow N hN (idx (ix3 b k 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix3 b k 0)).toInt.toNat (N - 1)
    rw [hsl]
    -- the start index is read at the result's two batch coordinates, component 0
    refine congrArg (fun v => min (idx v).toInt.toNat (N - 1)) ?_
    funext q
    refine Fin.ext ?_
    match q with
    | ⟨0, _⟩ => rfl
    | ⟨1, _⟩ => rfl
    | ⟨2, _⟩ => rfl
  | ⟨1, _⟩ =>
    -- the column axis: neither collapsed nor start-indexed, so the coordinate is the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

/-- Start indices `[R, 1]`, result `[R, C]`: element `(b, e)` is the table's at the row `idx[b, 0]` selects, column `e`. -/
theorem gather_row2 {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (b : Fin R) (e : Fin C) :
    Host.gather d x idx (ix2 b e) = x (ix2 (clampRow N hN (idx (ix2 b 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b 0)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl
  | ⟨1, _⟩ =>
    -- the column axis: the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

end Cert.LibGatherRow
-- ==== Proof.Spec.lean ====
/-
  What both programs compute, as one function of the four argument arrays.

  The result has 128 columns. Columns 0–63 copy `lc`. Column `64 + e` holds the embedding of the position's
  speaker id plus the bias: `W (e, id) + b e`, where `id` is the position's entry of `ids` read as a row number of
  the transposed table (a signed word clamped into `[0, 127]`; for an id already in `[0, 128)` that is the id itself).
-/
import Idealize.ShloMosaic.PureOps.Ideal
import Idealize.ShloMosaic.Lib.ValueIdx
import proofs.«409436_j45595372815055_3_alg».proof.Proof.LibGatherRow

noncomputable section

namespace Cert.Spec

open Idealize.ShloMosaic Idealize.ShloMosaic.ValueIdx

abbrev SLc : Shape := ⟨3, ![16, 32768, 64]⟩
abbrev SIds : Shape := ⟨2, ![16, 32768]⟩
abbrev SW : Shape := ⟨2, ![64, 128]⟩
abbrev SB : Shape := ⟨1, ![64]⟩
abbrev SOut : Shape := ⟨3, ![16, 32768, 128]⟩

/-- The row of the 128-row transposed table that an id selects. -/
abbrev rowOf (v : BitVec 32) : Fin 128 := Cert.LibGatherRow.clampRow 128 (by decide) v

/-- An id in `[0, 128)` selects the row with its own number. -/
theorem rowOf_val (v : BitVec 32) (h : v.toNat < 128) : (rowOf v).val = v.toNat := by
  have h31 : v.toNat < 2 ^ 31 := lt_trans h (by norm_num)
  have hi : v.toInt = (v.toNat : Int) := by
    rw [BitVec.toInt_eq_toNat_cond]; simp only [Nat.reducePow] at h31 ⊢; rw [if_pos (by omega)]
  show min v.toInt.toNat (128 - 1) = v.toNat
  rw [hi, Int.toNat_natCast]; omega

/-- Every id is a row number of the table. -/
def InRange (ids : IVec SIds 32) : Prop := ∀ i : SIds.Idx, (ids i).toNat < 128

/-- Every entry of the table is a real number. -/
def Finite (W : FVec Ideal SW .f32) : Prop := ∀ i : SW.Idx, ∃ r : ℝ, W i = (r : EReal)

/-- The embedding half at position `(p, q)`, column `e`: the table's entry for the position's id, plus the bias. -/
def emb (ids : IVec SIds 32) (W : FVec Ideal SW .f32) (b : FVec Ideal SB .f32) (p : Fin 16) (q : Fin 32768) (e : Fin 64) : EReal :=
  W (ix2 e (rowOf (ids (ix2 p q)))) + b (ix1 e)

/-- The whole result: `lc` in the low 64 columns, the embedding half in the high 64. -/
def G (lc : FVec Ideal SLc .f32) (ids : IVec SIds 32) (W : FVec Ideal SW .f32) (b : FVec Ideal SB .f32) : FVec Ideal SOut .f32 :=
  fun j =>
    let p : Fin 16 := j 0
    let q : Fin 32768 := j 1
    let c : Fin 128 := j 2
    if h : c.val < 64 then lc (ix3 p q ⟨c.val, h⟩)
    else emb ids W b p q ⟨c.val - 64, by have := c.isLt; omega⟩

/-- `G` at a low column. -/
theorem G_lo (lc : FVec Ideal SLc .f32) (ids : IVec SIds 32) (W : FVec Ideal SW .f32) (b : FVec Ideal SB .f32)
    (p : Fin 16) (q : Fin 32768) (c : Fin 128) (h : c.val < 64) :
    G lc ids W b (ix3 p q c) = lc (ix3 p q ⟨c.val, h⟩) := by
  show (if h : c.val < 64 then _ else _) = _
  rw [dif_pos h]

/-- `G` at a high column. -/
theorem G_hi (lc : FVec Ideal SLc .f32) (ids : IVec SIds 32) (W : FVec Ideal SW .f32) (b : FVec Ideal SB .f32)
    (p : Fin 16) (q : Fin 32768) (c : Fin 128) (h : ¬ c.val < 64) :
    G lc ids W b (ix3 p q c) = emb ids W b p q ⟨c.val - 64, by have := c.isLt; omega⟩ := by
  show (if h : c.val < 64 then _ else _) = _
  rw [dif_neg h]

end Cert.Spec

end
-- ==== Proof.KBlock.lean ====
/-
  What one grid point leaves in the output's staging buffer, as one function of the point's input blocks.

  The body's loop runs eight trips; trip `k` stores two pieces, both over rows `128·k … 128·k + 127` of all 16 batches:
  the `lc` block's rows into columns 0–63, and the embedding rows (the two table halves at the row each id selects,
  plus the bias) into columns 64–127. Each piece is the restriction of ONE function `blockFn` of the block index to
  the piece's rectangle, so the sixteen pieces, which tile the buffer, read back as `blockFn`.
-/
import proofs.«409436_j45595372815055_3_alg».proof.Proof.Gen.KernelIdeal.Frame
import proofs.«409436_j45595372815055_3_alg».proof.Proof.KPay
import proofs.«409436_j45595372815055_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Spec (rowOf rowOf_val)

/-- The staging buffer after the body, index by index: the `lc` block in the low columns; in the high columns the two
    table halves at the row the position's id selects, plus the bias. -/
def blockFn (x0 : FVec Ideal S16x1024x64 .f32) (x1 : IVec S16x1024 32) (x2 x3 : FVec Ideal S128x64 .bf16)
    (x4 : FVec Ideal S1x64 .f32) : FVec Ideal S16x1024x128 .f32 :=
  fun y =>
    let p : Fin 16 := y 0
    let r : Fin 1024 := y 1
    let c : Fin 128 := y 2
    if h : c.val < 64 then x0 (ix3 p r ⟨c.val, h⟩)
    else (x2 (ix2 (rowOf (x1 (ix2 p r))) (⟨c.val - 64, by have := c.isLt; omega⟩ : Fin 64))
          + x3 (ix2 (rowOf (x1 (ix2 p r))) (⟨c.val - 64, by have := c.isLt; omega⟩ : Fin 64)))
        + x4 (ix2 (0 : Fin 1) (⟨c.val - 64, by have := c.isLt; omega⟩ : Fin 64))

variable (x0 : FVec Ideal S16x1024x64 .f32) (x1 : IVec S16x1024 32) (x2 x3 : FVec Ideal S128x64 .bf16) (x4 : FVec Ideal S1x64 .f32)

theorem blockFn_lo (p : Fin 16) (r : Fin 1024) (c : Fin 128) (h : c.val < 64) :
    blockFn x0 x1 x2 x3 x4 (ix3 p r c) = x0 (ix3 p r ⟨c.val, h⟩) := by
  show (if h : c.val < 64 then _ else _) = _
  rw [dif_pos h]

theorem blockFn_hi (p : Fin 16) (r : Fin 1024) (c : Fin 128) (h : ¬ c.val < 64) :
    blockFn x0 x1 x2 x3 x4 (ix3 p r c)
      = (x2 (ix2 (rowOf (x1 (ix2 p r))) (⟨c.val - 64, by have := c.isLt; omega⟩ : Fin 64))
          + x3 (ix2 (rowOf (x1 (ix2 p r))) (⟨c.val - 64, by have := c.isLt; omega⟩ : Fin 64)))
        + x4 (ix2 (0 : Fin 1) (⟨c.val - 64, by have := c.isLt; omega⟩ : Fin 64)) := by
  show (if h : c.val < 64 then _ else _) = _
  rw [dif_neg h]

/-- A trip number is below eight. -/
theorem trip_lt (k : Fin k0_t1_loop.trips) : k.val < 8 := Nat.lt_of_lt_of_le k.isLt k0_t1_abs.2.1

/-! ## The two pieces of one trip -/

/-- Where trip `k`'s low piece lands: rows `128·k + r`, the same columns. -/
theorem emb_lo (k : Fin k0_t1_loop.trips) (p : Fin 16) (r : Fin 128) (e : Fin 64) :
    (Rect.unit (s := S16x1024x128) (k0_off4 k) S16x128x64.size (k0_off4_inb k)).emb (ix3 p r e)
      = ix3 p (⟨128 * k.val + r.val, by have := trip_lt k; omega⟩ : Fin 1024) (⟨e.val, by omega⟩ : Fin 128) := by
  have hk := k0_off4_eq k
  funext a; apply Fin.ext
  match a with
  | ⟨0, _⟩ => show k0_off4 k 0 + 1 * p.val = p.val; rw [hk]; show 0 + 1 * p.val = p.val; omega
  | ⟨1, _⟩ => show k0_off4 k 1 + 1 * r.val = 128 * k.val + r.val; rw [hk]; show 128 * k.val + 1 * r.val = _; omega
  | ⟨2, _⟩ => show k0_off4 k 2 + 1 * e.val = e.val; rw [hk]; show 0 + 1 * e.val = e.val; omega

/-- Where trip `k`'s low piece is read from in the `lc` block: the same rows and columns. -/
theorem emb_src (k : Fin k0_t1_loop.trips) (p : Fin 16) (r : Fin 128) (e : Fin 64) :
    (Rect.unit (s := S16x1024x64) (k0_off3 k) S16x128x64.size (k0_off3_inb k)).emb (ix3 p r e)
      = ix3 p (⟨128 * k.val + r.val, by have := trip_lt k; omega⟩ : Fin 1024) e := by
  have hk := k0_off3_eq k
  funext a; apply Fin.ext
  match a with
  | ⟨0, _⟩ => show k0_off3 k 0 + 1 * p.val = p.val; rw [hk]; show 0 + 1 * p.val = p.val; omega
  | ⟨1, _⟩ => show k0_off3 k 1 + 1 * r.val = 128 * k.val + r.val; rw [hk]; show 128 * k.val + 1 * r.val = _; omega
  | ⟨2, _⟩ => show k0_off3 k 2 + 1 * e.val = e.val; rw [hk]; show 0 + 1 * e.val = e.val; omega

/-- Where trip `k`'s high piece lands: rows `128·k + r`, columns `64 + e`. -/
theorem emb_hi (k : Fin k0_t1_loop.trips) (p : Fin 16) (r : Fin 128) (e : Fin 64) :
    (Rect.unit (s := S16x1024x128) (k0_off2 k) S16x128x64.size (k0_off2_inb k)).emb (ix3 p r e)
      = ix3 p (⟨128 * k.val + r.val, by have := trip_lt k; omega⟩ : Fin 1024) (⟨64 + e.val, by omega⟩ : Fin 128) := by
  have hk := k0_off2_eq k
  funext a; apply Fin.ext
  match a with
  | ⟨0, _⟩ => show k0_off2 k 0 + 1 * p.val = p.val; rw [hk]; show 0 + 1 * p.val = p.val; omega
  | ⟨1, _⟩ => show k0_off2 k 1 + 1 * r.val = 128 * k.val + r.val; rw [hk]; show 128 * k.val + 1 * r.val = _; omega
  | ⟨2, _⟩ => show k0_off2 k 2 + 1 * e.val = 64 + e.val; rw [hk]; show 64 + 1 * e.val = _; omega

/-- Where trip `k`'s ids are read from in the ids block: the same rows. -/
theorem emb_ids (k : Fin k0_t1_loop.trips) (p : Fin 16) (r : Fin 128) :
    (Rect.unit (s := S16x1024) (k0_off1 k) S16x128.size (k0_off1_inb k)).emb (ix2 p r)
      = ix2 p (⟨128 * k.val + r.val, by have := trip_lt k; omega⟩ : Fin 1024) := by
  have hk := k0_off1_eq k
  funext a; apply Fin.ext
  match a with
  | ⟨0, _⟩ => show k0_off1 k 0 + 1 * p.val = p.val; rw [hk]; show 0 + 1 * p.val = p.val; omega
  | ⟨1, _⟩ => show k0_off1 k 1 + 1 * r.val = 128 * k.val + r.val; rw [hk]; show 128 * k.val + 1 * r.val = _; omega

/-- The low piece of trip `k` is `blockFn` on its rectangle. -/
theorem piece_lo (k : Fin k0_t1_loop.trips) (x : S16x128x64.Idx) :
    View.ld (Val := Elt Ideal) (e' := .f32) x0 (Rect.unit (s := S16x1024x64) (k0_off3 k) S16x128x64.size (k0_off3_inb k)) x
      = blockFn x0 x1 x2 x3 x4 ((Rect.unit (s := S16x1024x128) (k0_off4 k) S16x128x64.size (k0_off4_inb k)).emb x) := by
  obtain ⟨p, r, e, rfl⟩ : ∃ (p : Fin 16) (r : Fin 128) (e : Fin 64), x = ix3 p r e := ⟨x 0, x 1, x 2, eq_ix3 x⟩
  show x0 ((Rect.unit (s := S16x1024x64) (k0_off3 k) S16x128x64.size (k0_off3_inb k)).emb (ix3 p r e)) = _
  rw [emb_src, emb_lo, blockFn_lo x0 x1 x2 x3 x4 _ _ _ (by show e.val < 64; exact e.isLt)]

/-- The high piece of trip `k` is `blockFn` on its rectangle, when the block's ids are row numbers. -/
theorem piece_hi (hr : ∀ idx : S16x1024.Idx, (x1 idx).toNat < 128) (k : Fin k0_t1_loop.trips) (x : S16x128x64.Idx) :
    k0_pay1 (F := Ideal) x4 (View.ld (Val := Elt Ideal) (e' := .i32) x1 (Rect.unit (s := S16x1024) (k0_off1 k) S16x128.size (k0_off1_inb k))) x2 x3 x
      = blockFn x0 x1 x2 x3 x4 ((Rect.unit (s := S16x1024x128) (k0_off2 k) S16x128x64.size (k0_off2_inb k)).emb x) := by
  obtain ⟨p, r, e, rfl⟩ : ∃ (p : Fin 16) (r : Fin 128) (e : Fin 64), x = ix3 p r e := ⟨x 0, x 1, x 2, eq_ix3 x⟩
  have hid : View.ld (Val := Elt Ideal) (e' := .i32) x1 (Rect.unit (s := S16x1024) (k0_off1 k) S16x128.size (k0_off1_inb k)) (ix2 p r)
      = x1 (ix2 p (⟨128 * k.val + r.val, by have := trip_lt k; omega⟩ : Fin 1024)) := by
    show x1 ((Rect.unit (s := S16x1024) (k0_off1 k) S16x128.size (k0_off1_inb k)).emb (ix2 p r)) = _
    rw [emb_ids]
  have hlt : (View.ld (Val := Elt Ideal) (e' := .i32) x1 (Rect.unit (s := S16x1024) (k0_off1 k) S16x128.size (k0_off1_inb k)) (ix2 p r)).toNat < 128 := by
    rw [hid]; exact hr _
  rw [Cert.KernelIdeal.Pay.pay_apply x4 _ x2 x3 p r e hlt, emb_hi,
    blockFn_hi x0 x1 x2 x3 x4 _ _ _ (by show ¬ (64 + e.val < 64); omega)]
  have hrow : (⟨(View.ld (Val := Elt Ideal) (e' := .i32) x1 (Rect.unit (s := S16x1024) (k0_off1 k) S16x128.size (k0_off1_inb k)) (ix2 p r)).toNat, hlt⟩ : Fin 128)
      = rowOf (x1 (ix2 p (⟨128 * k.val + r.val, by have := trip_lt k; omega⟩ : Fin 1024))) := by
    apply Fin.ext
    rw [rowOf_val _ (hr _)]
    exact congrArg BitVec.toNat hid
  have hcol : (⟨64 + e.val - 64, by omega⟩ : Fin 64) = e := Fin.ext (by show 64 + e.val - 64 = e.val; omega)
  rw [hrow]
  simp only [hcol]

/-! ## All sixteen pieces -/

theorem zeros2 : (![0, 0] : Fin 2 → Nat) = fun _ => 0 := funext fun a => by fin_cases a <;> rfl

/-- The two pieces trip `k` writes (its definition opened here, once), each `blockFn` on its rectangle. -/
theorem trip_pieces (hr : ∀ idx : S16x1024.Idx, (x1 idx).toNat < 128)
    (c : Dev nD) (i : grid0.Coords) (arg1 : Memref sig .tc .vmem S16x1024x64 .f32) (harg1 : arg1.IsWhole) (arg2 : Memref sig .tc .vmem S16x1024 .i32) (harg2 : arg2.IsWhole) (arg3 : Memref sig .tc .vmem S128x64 .bf16) (harg3 : arg3.IsWhole) (arg4 : Memref sig .tc .vmem S128x64 .bf16) (harg4 : arg4.IsWhole) (arg5 : Memref sig .tc .vmem S1x64 .f32) (harg5 : arg5.IsWhole) (arg6 : Memref sig .tc .vmem S16x1024x128 .f32) (harg6 : arg6.IsWhole) (k : Fin k0_t1_loop.trips) :
    ∀ p ∈ tripL_k0_t1 (F := Ideal) Variants.none c none i arg1 harg1 arg2 harg2 arg3 harg3 arg4 harg4 arg5 harg5 arg6 harg6
        (View.readAt (Elt Ideal) arg5.view (Rect.unit (s := S1x64) ![0, 0] S1x64.size inb_S1x64_S1x64_0_0).toLoadRect (harg5.unread x4))
        (harg1.unread x0) (harg2.unread x1) (harg3.unread x2) (harg4.unread x3) k,
      ∀ x : p.1.shape.Idx, p.2 x = blockFn x0 x1 x2 x3 x4 (p.1.emb x) := by
  unfold tripL_k0_t1 trip_k0_t1
  dsimp only
  intro p hp
  rcases List.mem_cons.mp hp with rfl | hp
  · intro x
    simp only [View.readAt_eq_ld, harg1.read_unread]
    exact piece_lo x0 x1 x2 x3 x4 k x
  · rcases List.mem_cons.mp hp with rfl | hp
    · intro x
      simp only [View.readAt_eq_ld, harg2.read_unread, harg3.read_unread, harg4.read_unread, harg5.read_unread,
        View.ld_unit_zero (S := S128x64) zeros2, View.ld_unit_zero (S := S1x64) zeros2]
      exact piece_hi x0 x1 x2 x3 x4 hr k x
    · exact absurd hp List.not_mem_nil

/-- Every piece written by the first `n` trips is `blockFn` on its rectangle. -/
theorem pieces_upto (hr : ∀ idx : S16x1024.Idx, (x1 idx).toNat < 128)
    (c : Dev nD) (i : grid0.Coords) (arg1 : Memref sig .tc .vmem S16x1024x64 .f32) (harg1 : arg1.IsWhole) (arg2 : Memref sig .tc .vmem S16x1024 .i32) (harg2 : arg2.IsWhole) (arg3 : Memref sig .tc .vmem S128x64 .bf16) (harg3 : arg3.IsWhole) (arg4 : Memref sig .tc .vmem S128x64 .bf16) (harg4 : arg4.IsWhole) (arg5 : Memref sig .tc .vmem S1x64 .f32) (harg5 : arg5.IsWhole) (arg6 : Memref sig .tc .vmem S16x1024x128 .f32) (harg6 : arg6.IsWhole) :
    ∀ n : ℕ, ∀ p ∈ pb_k0_t1 (F := Ideal) Variants.none c none i arg1 harg1 arg2 harg2 arg3 harg3 arg4 harg4 arg5 harg5 arg6 harg6
        (View.readAt (Elt Ideal) arg5.view (Rect.unit (s := S1x64) ![0, 0] S1x64.size inb_S1x64_S1x64_0_0).toLoadRect (harg5.unread x4))
        (harg1.unread x0) (harg2.unread x1) (harg3.unread x2) (harg4.unread x3) n,
      ∀ x : p.1.shape.Idx, p.2 x = blockFn x0 x1 x2 x3 x4 (p.1.emb x)
  | 0 => by
    intro p hp
    rw [pb_k0_t1.eq_1] at hp
    exact absurd hp List.not_mem_nil
  | n + 1 => by
    intro p hp
    by_cases h : n < k0_t1_loop.trips
    · have e : pb_k0_t1 (F := Ideal) Variants.none c none i arg1 harg1 arg2 harg2 arg3 harg3 arg4 harg4 arg5 harg5 arg6 harg6
            (View.readAt (Elt Ideal) arg5.view (Rect.unit (s := S1x64) ![0, 0] S1x64.size inb_S1x64_S1x64_0_0).toLoadRect (harg5.unread x4))
            (harg1.unread x0) (harg2.unread x1) (harg3.unread x2) (harg4.unread x3) (n + 1)
          = tripL_k0_t1 (F := Ideal) Variants.none c none i arg1 harg1 arg2 harg2 arg3 harg3 arg4 harg4 arg5 harg5 arg6 harg6
              (View.readAt (Elt Ideal) arg5.view (Rect.unit (s := S1x64) ![0, 0] S1x64.size inb_S1x64_S1x64_0_0).toLoadRect (harg5.unread x4))
              (harg1.unread x0) (harg2.unread x1) (harg3.unread x2) (harg4.unread x3) ⟨n, h⟩
            ++ pb_k0_t1 (F := Ideal) Variants.none c none i arg1 harg1 arg2 harg2 arg3 harg3 arg4 harg4 arg5 harg5 arg6 harg6
              (View.readAt (Elt Ideal) arg5.view (Rect.unit (s := S1x64) ![0, 0] S1x64.size inb_S1x64_S1x64_0_0).toLoadRect (harg5.unread x4))
              (harg1.unread x0) (harg2.unread x1) (harg3.unread x2) (harg4.unread x3) n :=
        pb_k0_t1_succ (F := Ideal) Variants.none c none i arg1 harg1 arg2 harg2 arg3 harg3 arg4 harg4 arg5 harg5 arg6 harg6 _ _ _ _ _ ⟨n, h⟩
      rw [e] at hp
      rcases List.mem_append.mp hp with hp | hp
      · exact trip_pieces x0 x1 x2 x3 x4 hr c i arg1 harg1 arg2 harg2 arg3 harg3 arg4 harg4 arg5 harg5 arg6 harg6 ⟨n, h⟩ p hp
      · exact pieces_upto hr c i arg1 harg1 arg2 harg2 arg3 harg3 arg4 harg4 arg5 harg5 arg6 harg6 n p hp
    · have e : pb_k0_t1 (F := Ideal) Variants.none c none i arg1 harg1 arg2 harg2 arg3 harg3 arg4 harg4 arg5 harg5 arg6 harg6
            (View.readAt (Elt Ideal) arg5.view (Rect.unit (s := S1x64) ![0, 0] S1x64.size inb_S1x64_S1x64_0_0).toLoadRect (harg5.unread x4))
            (harg1.unread x0) (harg2.unread x1) (harg3.unread x2) (harg4.unread x3) (n + 1)
          = pb_k0_t1 (F := Ideal) Variants.none c none i arg1 harg1 arg2 harg2 arg3 harg3 arg4 harg4 arg5 harg5 arg6 harg6
              (View.readAt (Elt Ideal) arg5.view (Rect.unit (s := S1x64) ![0, 0] S1x64.size inb_S1x64_S1x64_0_0).toLoadRect (harg5.unread x4))
              (harg1.unread x0) (harg2.unread x1) (harg3.unread x2) (harg4.unread x3) n := by
        rw [pb_k0_t1.eq_2]; unfold pb_k0_t1Step; exact dif_neg h
      rw [e] at hp
      exact pieces_upto hr c i arg1 harg1 arg2 harg2 arg3 harg3 arg4 harg4 arg5 harg5 arg6 harg6 n p hp

/-- THE BLOCK: what the body leaves in the output's staging buffer is `blockFn` of the point's input blocks, when the
    ids block holds row numbers. (The run's definition is opened here, once: its pieces are those of the eight trips.) -/
theorem block_eq (hr : ∀ idx : S16x1024.Idx, (x1 idx).toNat < 128)
    (c : Dev nD) (i : grid0.Coords) (arg1 : Memref sig .tc .vmem S16x1024x64 .f32) (harg1 : arg1.IsWhole) (arg2 : Memref sig .tc .vmem S16x1024 .i32) (harg2 : arg2.IsWhole) (arg3 : Memref sig .tc .vmem S128x64 .bf16) (harg3 : arg3.IsWhole) (arg4 : Memref sig .tc .vmem S128x64 .bf16) (harg4 : arg4.IsWhole) (arg5 : Memref sig .tc .vmem S1x64 .f32) (harg5 : arg5.IsWhole) (arg6 : Memref sig .tc .vmem S16x1024x128 .f32) (harg6 : arg6.IsWhole) :
    out0_A_5 (F := Ideal) c i arg1 harg1 arg2 harg2 arg3 harg3 arg4 harg4 arg5 harg5 arg6 harg6 x0 x1 x2 x3 x4 = blockFn x0 x1 x2 x3 x4 := by
  unfold out0_A_5
  rw [View.read_writes_eq_canon _ _ _ (cover0_A_5 (F := Ideal) c i arg1 harg1 arg2 harg2 arg3 harg3 arg4 harg4 arg5 harg5 arg6 harg6 x0 x1 x2 x3 x4)]
  funext y
  refine View.canon_apply_of_pieces (blockFn x0 x1 x2 x3 x4) _ ?_ y (cover0_A_5 (F := Ideal) c i arg1 harg1 arg2 harg2 arg3 harg3 arg4 harg4 arg5 harg5 arg6 harg6 x0 x1 x2 x3 x4 y)
  unfold kernelRun0_A
  dsimp only
  exact pieces_upto x0 x1 x2 x3 x4 hr c i arg1 harg1 arg2 harg2 arg3 harg3 arg4 harg4 arg5 harg5 arg6 harg6 _

end Cert.KernelIdeal.Val

end
-- ==== Proof.KHost.lean ====
/-
  What the three arrays that the host operations prepare for the region hold, index by index, at the ideal values.

  A change of float format is the identity on an extended real. So the first table is the transposed `W`; the second,
  `Wᵀ` minus its own round trip through the narrower format, is `x − x` entry by entry, which is zero where `x` is a
  real number; and the bias array is `b` with a unit axis in front.
-/
import proofs.«409436_j45595372815055_3_alg».proof.Proof.Gen.KernelIdeal.Frame
import proofs.«409436_j45595372815055_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ)

/-- The four arguments and the three prepared arrays, each at its literal type. -/
abbrev lcArr (c : Dev nD) : FVec Ideal S16x32768x64 .f32 := m ((c : Thread nD τ).loc main_arg0)
abbrev idsArr (c : Dev nD) : IVec S16x32768 32 := m ((c : Thread nD τ).loc main_arg1)
abbrev wArr (c : Dev nD) : FVec Ideal S64x128 .f32 := m ((c : Thread nD τ).loc main_arg2)
abbrev bArr (c : Dev nD) : FVec Ideal S64 .f32 := m ((c : Thread nD τ).loc main_arg3)
abbrev tableHi (c : Dev nD) : FVec Ideal S128x64 .bf16 := V m c main_v1
abbrev tableLo (c : Dev nD) : FVec Ideal S128x64 .bf16 := V m c main_v4
abbrev biasRow (c : Dev nD) : FVec Ideal S1x64 .f32 := V m c main_v5

theorem tableHi_eq (c : Dev nD) :
    tableHi m c = truncf .bf16 (transpose S128x64 [1, 0] (wArr m c) transposes_S64x128_S128x64_1_0) bitsLt_bf16_f32 := by
  unfold tableHi wArr
  dsimp only [Gen.V, Gen.hostOps0]; after_results

theorem tableLo_eq (c : Dev nD) :
    tableLo m c = truncf .bf16 (subf (transpose S128x64 [1, 0] (wArr m c) transposes_S64x128_S128x64_1_0)
        (extf .f32 (truncf .bf16 (transpose S128x64 [1, 0] (wArr m c) transposes_S64x128_S128x64_1_0) bitsLt_bf16_f32)
          bitsLt_bf16_f32)) bitsLt_bf16_f32 := by
  unfold tableLo wArr
  dsimp only [Gen.V, Gen.hostOps0]; after_results

theorem biasRow_eq (c : Dev nD) : biasRow m c = shapeCast S1x64 (bArr m c) shapeCasts_S64_S1x64 := by
  unfold biasRow bArr
  dsimp only [Gen.V, Gen.hostOps0]; after_results; rfl

/-- The first table is the transposed `W`. -/
theorem tableHi_apply (c : Dev nD) (k : Fin 128) (e : Fin 64) : tableHi m c (ix2 k e) = wArr m c (ix2 e k) := by
  rw [tableHi_eq, truncf_apply, transpose_ix2_apply]

/-- The second table is zero where `W`'s entries are real numbers. -/
theorem tableLo_apply (c : Dev nD) (hW : Cert.Spec.Finite (wArr m c)) (k : Fin 128) (e : Fin 64) :
    tableLo m c (ix2 k e) = 0 := by
  rw [tableLo_eq, truncf_apply, subf_apply, extf_apply, truncf_apply, transpose_ix2_apply]
  obtain ⟨x, hx⟩ := hW (ix2 e k)
  rw [hx, ← EReal.coe_sub, sub_self, EReal.coe_zero]

/-- The bias array is `b` behind a unit axis. -/
theorem biasRow_apply (c : Dev nD) (e : Fin 64) : biasRow m c (ix2 (0 : Fin 1) e) = bArr m c (ix1 e) := by
  rw [biasRow_eq]
  refine (shapeCast_addUnit_apply ![64] _ shapeCasts_S64_S1x64 (ix2 (0 : Fin 1) e)).trans ?_
  congr 1
  funext a
  match a with
  | ⟨0, _⟩ => rfl

end Cert.KernelIdeal.Val

end
-- ==== Proof.KArray.lean ====
/-
  From one grid point's block to the whole result array.

  Grid point `t` stages rows `1024·t … 1024·t + 1023` of `lc`, of `ids` and of the result, and the two tables and the
  bias whole. What it writes back is `blockFn` of those blocks, which is the specification `G` of the four arguments
  read through the point's block: in the low columns `lc` itself; in the high columns the first table's row (the
  transposed `W`) plus the second table's (zero, `W` being real) plus the bias. The 32 blocks tile the array, so the
  array ends holding `G`.
-/
import proofs.«409436_j45595372815055_3_alg».proof.Proof.Gen.KernelIdeal.Value
import proofs.«409436_j45595372815055_3_alg».proof.Proof.KBlock
import proofs.«409436_j45595372815055_3_alg».proof.Proof.KHost
import proofs.«409436_j45595372815055_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Value

variable (m : (ℓ : Loc nD τ sig) → Buf (Elt Ideal) ℓ) (ρ : Dev nD → PrngReg)

/-- The grid has 32 points. -/
theorem point_lt (t : Fin cfg0.N) : t.val < 32 := lt_of_lt_of_eq t.isLt N_0

/-- The printed index maps, decided over the grid: the three streamed windows move along the row axis with the point,
    the three small windows stay at block zero. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = t.val ∧ win0_5.index t (2 : Fin 3) = 0) :=
  (by decide +kernel : ∀ t : Fin grid0.N, _)

/-- The five input blocks of a point, each at its literal type. -/
abbrev lcBlk (c : Dev nD) (t : Fin cfg0.N) : FVec Ideal S16x1024x64 .f32 := iblk m c 0 t
abbrev idsBlk (c : Dev nD) (t : Fin cfg0.N) : IVec S16x1024 32 := iblk m c 1 t
abbrev hiBlk (c : Dev nD) (t : Fin cfg0.N) : FVec Ideal S128x64 .bf16 := iblk m c 2 t
abbrev loBlk (c : Dev nD) (t : Fin cfg0.N) : FVec Ideal S128x64 .bf16 := iblk m c 3 t
abbrev biasBlk (c : Dev nD) (t : Fin cfg0.N) : FVec Ideal S1x64 .f32 := iblk m c 4 t

/-! ## Each block read where its window's rectangle says -/

theorem lcBlk_apply (c : Dev nD) (t : Fin cfg0.N) (p : Fin 16) (r : Fin 1024) (e : Fin 64) :
    lcBlk m c t (ix3 p r e) = lcArr m c (ix3 p (⟨1024 * t.val + r.val, by have := point_lt t; omega⟩ : Fin 32768) e) := by
  show V m c main_arg0 (((cfg0.win 0).blk t).view.emb (ix3 p r e)) = _
  rw [V_main_arg0]
  show lcArr m c _ = lcArr m c _
  refine congrArg (lcArr m c) ?_
  obtain ⟨⟨e0, e1, e2⟩, -⟩ := idx_facts t
  funext a; apply Fin.ext
  match a with
  | ⟨0, _⟩ => show win0_0.index t (0 : Fin 3) * 16 + 1 * p.val = p.val; omega
  | ⟨1, _⟩ => show win0_0.index t (1 : Fin 3) * 1024 + 1 * r.val = 1024 * t.val + r.val; omega
  | ⟨2, _⟩ => show win0_0.index t (2 : Fin 3) * 64 + 1 * e.val = e.val; omega

theorem idsBlk_apply (c : Dev nD) (t : Fin cfg0.N) (p : Fin 16) (r : Fin 1024) :
    idsBlk m c t (ix2 p r) = idsArr m c (ix2 p (⟨1024 * t.val + r.val, by have := point_lt t; omega⟩ : Fin 32768)) := by
  show V m c main_arg1 (((cfg0.win 1).blk t).view.emb (ix2 p r)) = _
  rw [V_main_arg1]
  show idsArr m c _ = idsArr m c _
  refine congrArg (idsArr m c) ?_
  obtain ⟨-, ⟨e0, e1⟩, -⟩ := idx_facts t
  funext a; apply Fin.ext
  match a with
  | ⟨0, _⟩ => show win0_1.index t (0 : Fin 2) * 16 + 1 * p.val = p.val; omega
  | ⟨1, _⟩ => show win0_1.index t (1 : Fin 2) * 1024 + 1 * r.val = 1024 * t.val + r.val; omega

theorem hiBlk_apply (c : Dev nD) (t : Fin cfg0.N) (k : Fin 128) (e : Fin 64) :
    hiBlk m c t (ix2 k e) = wArr m c (ix2 e k) := by
  rw [← tableHi_apply m c k e]
  show V m c main_v1 (((cfg0.win 2).blk t).view.emb (ix2 k e)) = V m c main_v1 (ix2 k e)
  refine congrArg (V m c main_v1) ?_
  obtain ⟨-, -, ⟨e0, e1⟩, -⟩ := idx_facts t
  funext a; apply Fin.ext
  match a with
  | ⟨0, _⟩ => show win0_2.index t (0 : Fin 2) * 128 + 1 * k.val = k.val; omega
  | ⟨1, _⟩ => show win0_2.index t (1 : Fin 2) * 64 + 1 * e.val = e.val; omega

theorem loBlk_apply (c : Dev nD) (hW : Cert.Spec.Finite (wArr m c)) (t : Fin cfg0.N) (k : Fin 128) (e : Fin 64) :
    loBlk m c t (ix2 k e) = 0 := by
  rw [← tableLo_apply m c hW k e]
  show V m c main_v4 (((cfg0.win 3).blk t).view.emb (ix2 k e)) = V m c main_v4 (ix2 k e)
  refine congrArg (V m c main_v4) ?_
  obtain ⟨-, -, -, ⟨e0, e1⟩, -⟩ := idx_facts t
  funext a; apply Fin.ext
  match a with
  | ⟨0, _⟩ => show win0_3.index t (0 : Fin 2) * 128 + 1 * k.val = k.val; omega
  | ⟨1, _⟩ => show win0_3.index t (1 : Fin 2) * 64 + 1 * e.val = e.val; omega

theorem biasBlk_apply (c : Dev nD) (t : Fin cfg0.N) (e : Fin 64) :
    biasBlk m c t (ix2 (0 : Fin 1) e) = bArr m c (ix1 e) := by
  rw [← biasRow_apply m c e]
  show V m c main_v5 (((cfg0.win 4).blk t).view.emb (ix2 (0 : Fin 1) e)) = V m c main_v5 (ix2 (0 : Fin 1) e)
  refine congrArg (V m c main_v5) ?_
  obtain ⟨-, -, -, -, ⟨e0, e1⟩, -⟩ := idx_facts t
  funext a; apply Fin.ext
  match a with
  | ⟨0, _⟩ => show win0_4.index t (0 : Fin 2) * 1 + 1 * (0 : Fin 1).val = (0 : Fin 1).val; omega
  | ⟨1, _⟩ => show win0_4.index t (1 : Fin 2) * 64 + 1 * e.val = e.val; omega

/-! ## One point's block is the specification read through it -/

/-- Where point `t`'s result block sits in the array: rows `1024·t + r`. -/
theorem outBlk_emb (t : Fin cfg0.N) (p : Fin 16) (r : Fin 1024) (cc : Fin 128) :
    ((cfg0.win 5).blk t).view.emb (ix3 p r cc)
      = ix3 p (⟨1024 * t.val + r.val, by have := point_lt t; omega⟩ : Fin 32768) cc := by
  obtain ⟨-, -, -, -, -, ⟨e0, e1, e2⟩⟩ := idx_facts t
  funext a; apply Fin.ext
  match a with
  | ⟨0, _⟩ => show win0_5.index t (0 : Fin 3) * 16 + 1 * p.val = p.val; omega
  | ⟨1, _⟩ => show win0_5.index t (1 : Fin 3) * 1024 + 1 * r.val = 1024 * t.val + r.val; omega
  | ⟨2, _⟩ => show win0_5.index t (2 : Fin 3) * 128 + 1 * cc.val = cc.val; omega

/-- The ids a point stages are row numbers when all ids are. -/
theorem idsBlk_lt (c : Dev nD) (hr : Cert.Spec.InRange (idsArr m c)) (t : Fin cfg0.N) (idx : S16x1024.Idx) :
    (idsBlk m c t idx).toNat < 128 := by
  obtain ⟨p, r, rfl⟩ : ∃ (p : Fin 16) (r : Fin 1024), idx = ix2 p r := ⟨idx 0, idx 1, eq_ix2 idx⟩
  rw [idsBlk_apply]; exact hr _

theorem point_eq (c : Dev nD) (hr : Cert.Spec.InRange (idsArr m c)) (hW : Cert.Spec.Finite (wArr m c)) (t : Fin cfg0.N)
    (y : S16x1024x128.Idx) :
    blockFn (lcBlk m c t) (idsBlk m c t) (hiBlk m c t) (loBlk m c t) (biasBlk m c t) y
      = Cert.Spec.G (lcArr m c) (idsArr m c) (wArr m c) (bArr m c) (((cfg0.win 5).blk t).view.emb y) := by
  obtain ⟨p, r, cc, rfl⟩ : ∃ (p : Fin 16) (r : Fin 1024) (cc : Fin 128), y = ix3 p r cc := ⟨y 0, y 1, y 2, eq_ix3 y⟩
  rw [outBlk_emb]
  by_cases h : cc.val < 64
  · rw [blockFn_lo _ _ _ _ _ p r cc h, Cert.Spec.G_lo _ _ _ _ p _ cc h, lcBlk_apply]
  · rw [blockFn_hi _ _ _ _ _ p r cc h, Cert.Spec.G_hi _ _ _ _ p _ cc h]
    unfold Cert.Spec.emb
    rw [hiBlk_apply, loBlk_apply m c hW, biasBlk_apply, idsBlk_apply, add_zero]

/-- WHAT POINT `t` WRITES BACK is the specification read through the point's block. -/
theorem flushed_eq (c : Dev nD) (hr : Cert.Spec.InRange (idsArr m c)) (hW : Cert.Spec.Finite (wArr m c)) (t : Fin cfg0.N) :
    (dats m 0 c).flushed 5 t
      = ((cfg0.win 5).blk t).view.read (Elt Ideal) (Cert.Spec.G (lcArr m c) (idsArr m c) (wArr m c) (bArr m c)) := by
  rw [flushed5_A]
  rw [block_eq (lcBlk m c t) (idsBlk m c t) (hiBlk m c t) (loBlk m c t) (biasBlk m c t) (idsBlk_lt m c hr t)]
  funext j
  exact point_eq m c hr hW t j

/-! ## The 32 blocks tile the array -/

theorem mem_outBlk (t : Fin cfg0.N) (i : S16x32768x128.Idx) :
    i ∈ ((cfg0.win 5).blk t).view.set ↔ ∀ a : Fin 3, win0_5.index t a * S16x1024x128.size a ≤ (i a).val
      ∧ (i a).val < win0_5.index t a * S16x1024x128.size a + S16x1024x128.size a := by
  show i ∈ ((View.whole main_v6).slice (win0_5.rect t)).set ↔ _
  rw [View.set_slice_whole, Rect.mem_set_unit]
  exact Iff.rfl

theorem covered (i : S16x32768x128.Idx) :
    ∃ t : Fin cfg0.N, (cfg0.win 5).flush t = true ∧ i ∈ ((cfg0.win 5).blk t).view.set := by
  have hi0 : (i 0).val < 16 := (i 0).isLt
  have hi1 : (i 1).val < 32768 := (i 1).isLt
  have hi2 : (i 2).val < 128 := (i 2).isLt
  let t : Fin cfg0.N := ⟨(i 1).val / 1024, by rw [show cfg0.N = 32 from N_0]; omega⟩
  obtain ⟨-, -, -, -, -, ⟨e0, e1, e2⟩⟩ := idx_facts t
  have ht : t.val = (i 1).val / 1024 := rfl
  refine ⟨t, flush0_5 t, ?_⟩
  rw [mem_outBlk]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

/-- THE ARRAY after the run is the specification of the four arguments. -/
theorem final (c : Dev nD) (hr : Cert.Spec.InRange (idsArr m c)) (hW : Cert.Spec.Finite (wArr m c)) :
    (dats m 0 c).arrAt 5 cfg0.N = Cert.Spec.G (lcArr m c) (idsArr m c) (wArr m c) (bArr m c) :=
  (dats m 0 c).arrAt_eq_of_cover 5 (Cert.Spec.G (lcArr m c) (idsArr m c) (wArr m c) (bArr m c))
    (fun t _ => flushed_eq m c hr hW t) covered

/-- The kernel's run, read: the result array at the specification, the arguments unchanged. -/
theorem run (h : ∀ c : Dev nD, Cert.Spec.InRange (idsArr m c) ∧ Cert.Spec.Finite (wArr m c)) :
    θ_run defs (onTc (τ := τ) (main (F := Ideal))) ⟨m, fun _ => 0, ρ⟩ fun r => ∀ c : Dev nD,
      r.2.mem ((c : Thread nD τ).loc main_v6) = Cert.Spec.G (lcArr m c) (idsArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hh c => ⟨(hh c).1.trans (final m c (h c).1 (h c).2), (hh c).2⟩)
    (run_blocks m ρ)

end Cert.KernelIdeal.Val

end
-- ==== Proof.PreFacts.lean ====
/-
  What the precondition says about the integer and the table argument: every id is a row number of the table, and
  every table entry is a real number.

  The precondition is a conjunction of four "all" tests, each a reduction by "and" of an array of one-bit words over
  all of its axes. That the conjunction is 1 makes each test 1, and a test that is 1 has a 1 at every index. At an index
  of the ids the bit says 0 ≤ id and id < 128 as signed 32-bit words, so the id read unsigned is below 128. At an
  index of the table the bit says |W i| < +∞, which holds of no infinity, so W i is a real number.
-/
import proofs.«409436_j45595372815055_3_alg».proof.Pre_finite_inputs
import proofs.«409436_j45595372815055_3_alg».proof.Proof.Gen.Pre_finite_inputs
import proofs.«409436_j45595372815055_3_alg».proof.Proof.Spec
import Idealize.ShloMosaic.PureOps.Ideal
import Idealize.ShloMosaic.Lib.ReduceAll

noncomputable section

namespace Cert.PreFacts

open Idealize.ShloMosaic Idealize.ShloMosaic.ValueIdx

/-- The rank-0 shape has one index. -/
instance : Subsingleton Cert.Pre_finite_inputs.S_.Idx := ⟨fun a b => funext fun d => d.elim0⟩

/-- A 32-bit word that is at least 0 and below 128 read signed is below 128 read unsigned: a word with its top bit
    set reads negative, and one with it clear reads the same both ways. -/
theorem toNat_lt_of_signed (v : BitVec 32) (h0 : IntOp.cmpi .sge v 0#32 = 1#1) (h1 : IntOp.cmpi .slt v 128#32 = 1#1) :
    v.toNat < 128 := by
  rw [IntOp.cmpi_sge, show (0#32 : BitVec 32).toInt = 0 from by decide] at h0
  rw [IntOp.cmpi_slt, show (128#32 : BitVec 32).toInt = 128 from by decide] at h1
  rw [BitVec.toInt_eq_toNat_cond] at h0 h1
  have hv := v.isLt
  by_cases hc : 2 * v.toNat < 2 ^ 32
  · rw [if_pos hc] at h1; omega
  · rw [if_neg hc] at h0; omega

/-- A one-bit word made from a truth value is 1 exactly when the value is true. -/
theorem ofBool_eq_one (c : Bool) : BitVec.ofBool c = 1#1 ↔ c = true := by cases c <;> decide

/-- An extended real whose absolute value max x (−x) is below the value of the pattern 0x7F800000, which is +∞, is
    neither infinity, so it is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    have h' : BitVec.ofBool (decide (max x (-x) < ⊤)) = 1#1 := h
    rw [ofBool_eq_one, decide_eq_true_eq] at h'
    exact h'
  rw [max_lt_iff] at hlt
  have hne_top : x ≠ ⊤ := ne_of_lt hlt.1
  have hne_bot : x ≠ ⊥ := by
    intro hb
    rw [hb] at hlt
    exact absurd hlt.2 (by simp)
  exact ⟨x.toReal, (EReal.coe_toReal hne_top hne_bot).symm⟩

theorem of_pre (lc : FVec Ideal Cert.Pre_finite_inputs.S16x32768x64 .f32) (ids : IVec Cert.Pre_finite_inputs.S16x32768 32)
    (W : FVec Ideal Cert.Pre_finite_inputs.S64x128 .f32) (b : FVec Ideal Cert.Pre_finite_inputs.S64 .f32)
    (h : Cert.Pre_finite_inputs.fn (F := Ideal) lc ids W b = fun _ => 1#1) :
    Cert.Spec.InRange ids ∧ Cert.Spec.Finite W := by
  -- the result at its one index, with the printed chain of lets opened
  have e := congrFun h ValueIdx.ix0
  dsimp only [Cert.Pre_finite_inputs.fn, Cert.Pre_finite_inputs.fn_part1] at e
  -- the four conjuncts; the table's and the ids' are the ones used
  obtain ⟨e123, eR⟩ := IntOp.andi_eq_one.1 e
  obtain ⟨e12, -⟩ := IntOp.andi_eq_one.1 e123
  obtain ⟨-, eW⟩ := IntOp.andi_eq_one.1 e12
  -- each "all" gives its bit at every index
  have hR := Host.reduce_andi_all _ _ _ _ ValueIdx.ix0 eR
  have hW := Host.reduce_andi_all _ _ _ _ ValueIdx.ix0 eW
  refine ⟨fun i => ?_, fun i => ?_⟩
  · obtain ⟨h0, h1⟩ := IntOp.andi_eq_one.1 (hR i)
    exact toNat_lt_of_signed (ids i) h0 h1
  · exact real_of_abs_lt_inf (W i) (hW i)

end Cert.PreFacts

end
-- ==== Proof.RefTerm.lean ====
/-
  The reference's host operations composed into one pure term of the four arguments.

  The table is transposed; an id below zero is moved up by 128; the moved id, as a one-component index vector, gathers a
  row of the transposed table; where the moved id lies outside `[0, 127]` the gathered row is replaced by a fill word;
  the bias, broadcast along both position axes, is added; and the result is joined to `lc` along the column axis.
-/
import proofs.«409436_j45595372815055_3_alg».proof.ReferenceIdeal
import proofs.«409436_j45595372815055_3_alg».proof.Proof.Gen.ReferenceIdeal

noncomputable section

namespace Cert.ReferenceIdeal.Hand

open Cert.ReferenceIdeal Cert.ReferenceIdeal.Facts₀ Idealize.ShloMosaic

variable {F : FTy → Type} [FloatOps F]

/-- The id moved up by 128 where it is negative. -/
def movedIds (ids : IVec S16x32768 32) : IVec S16x32768 32 :=
  select (cmpi .slt ids (broadcastInDim S16x32768 ![] bcast_S_S16x32768 (constantI S_ 32 0#32)))
    (addi ids (broadcastInDim S16x32768 ![] bcast_S_S16x32768 (constantI S_ 32 128#32))) ids

/-- The moved ids as one-component index vectors. -/
def startIdx (ids : IVec S16x32768 32) : IVec S16x32768x1 32 :=
  broadcastInDim S16x32768x1 ![0, 1] bcast_S16x32768_S16x32768x1_0_1 (movedIds ids)

/-- Whether a position's moved id lies in `[0, 127]`. -/
def inBounds (ids : IVec S16x32768 32) : IVec S16x32768 1 :=
  Host.reduce IntOp.andi
    (andi (cmpi .sge (startIdx ids) (broadcastInDim S16x32768x1 ![] bcast_S_S16x32768x1 (constantI S_ 32 0#32)))
      (cmpi .sle (startIdx ids) (broadcastInDim S16x32768x1 ![0, 1, 2] bcast_S1x1x1_S16x32768x1_0_1_2
        (broadcastInDim S1x1x1 ![2] bcast_S1_S1x1x1_2 (constantI S1 32 127#32)))))
    (constantI S_ 1 1#1) reducesTo_S16x32768x1_S16x32768_d2 h_S_

/-- The rows taken from the transposed table, fill word where the moved id is out of bounds. -/
def taken (ids : IVec S16x32768 32) (W : FVec F S64x128 .f32) : FVec F S16x32768x64 .f32 :=
  select (broadcastInDim S16x32768x64 ![0, 1] bcast_S16x32768_S16x32768x64_0_1 (inBounds ids))
    (Host.gather gather_S128x64_S16x32768x1_S16x32768x64_2_0_n_n_0_2_164
      (transpose S128x64 [1, 0] W transposes_S64x128_S128x64_1_0) (startIdx ids))
    (broadcastInDim S16x32768x64 ![] bcast_S_S16x32768x64 (constant S_ .f32 0x7FC00000#32))

/-- The bias along both position axes. -/
def biasAll (b : FVec F S64 .f32) : FVec F S16x32768x64 .f32 :=
  broadcastInDim S16x32768x64 ![0, 1, 2] bcast_S1x1x64_S16x32768x64_0_1_2 (broadcastInDim S1x1x64 ![2] bcast_S64_S1x1x64_2 b)

/-- The result: `lc` joined to the taken rows plus the bias. -/
def term (lc : FVec F S16x32768x64 .f32) (ids : IVec S16x32768 32) (W : FVec F S64x128 .f32) (b : FVec F S64 .f32) :
    FVec F S16x32768x128 .f32 :=
  concatenate S16x32768x128 2 [⟨S16x32768x64, lc⟩, ⟨S16x32768x64, addf (taken ids W) (biasAll b)⟩]
    concatenates_S16x32768x64_S16x32768x64_S16x32768x128_d2

end Cert.ReferenceIdeal.Hand

end
-- ==== Proof.LibCat2.lean ====
/-
  A two-piece concatenation as a function of its two operands.

  `concatenate` takes its pieces as a LIST of shape–array pairs. A simplifier pass that computes what a buffer holds after
  a line of host operations rewrites inside the arguments of an operation's function, but not inside such a list, so the
  operands of a concatenation of COMPUTED arrays stay unevaluated folds, and a closing comparison has to evaluate them by
  unfolding, which can take minutes or run out of recursion depth. `cat2` names the two operands as plain arguments:
  rewriting a two-piece `concatenate` to `cat2` (`cat2_eq`, in the same pass) lets the pass go on into both operands;
  `cat2` unfolds back to the `concatenate` by definition.
-/
import Idealize.ShloMosaic.PureOps.ShapeOps

namespace Cert.LibCat2

open Idealize.ShloMosaic

/-- Two arrays joined along axis `a`, as a function of the two. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece concatenation is `cat2` of its operands. -/
theorem cat2_eq {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

end Cert.LibCat2
-- ==== Proof.RefRun.lean ====
/-
  The reference program's run, read back: every weakly fair execution ends with the result buffer at one pure term of
  the four arguments, and the arguments unchanged.
-/
import proofs.«409436_j45595372815055_3_alg».proof.Proof.RefTerm
import proofs.«409436_j45595372815055_3_alg».proof.Proof.LibCat2
import Idealize.ShloMosaic.Lib.StableHlo.Run

noncomputable section

namespace Cert.ReferenceIdeal.Hand

open Cert.ReferenceIdeal Idealize.ShloMosaic Idealize.ShloMosaic.TcCoe Idealize.SL.Sem

variable {F : FTy → Type} [FloatOps F]

section Line

open Cert.ReferenceIdeal.Facts₀ Idealize.ShloMosaic.StableHlo

/-- The program as one line of 28 operations: the transpose; the 23 operations of the take, its inner select in place,
    over the call's buffers; the two broadcasts of the bias; the sum; the join. -/
abbrev ops : List (HloOp τ sig (Elt F)) :=
  [ unary main_arg2 main_v0 ((transpose S128x64 [1, 0] · transposes_S64x128_S128x64_1_0) : (⟨S64x128, .f32⟩ : BufTy).Contents (Elt F) → (⟨S128x64, .f32⟩ : BufTy).Contents (Elt F)),
    TRef.nullary main_call0.c (constantI S_ 32 0#32),
    TRef.unary main_call0.c main_call0.v0 (broadcastInDim S16x32768 ![] bcast_S_S16x32768),
    TRef.binary (.of main_arg1) main_call0.v0 main_call0.v1 (cmpi .slt),
    TRef.nullary main_call0.c_0 (constantI S_ 32 128#32),
    TRef.unary main_call0.c_0 main_call0.v2 (broadcastInDim S16x32768 ![] bcast_S_S16x32768),
    TRef.binary (.of main_arg1) main_call0.v2 main_call0.v3 addi,
    TRef.ternary main_call0.v1 main_call0.v3 (.of main_arg1) main_call0.call0.v0 select,
    TRef.unary main_call0.call0.v0 main_call0.v5 (broadcastInDim S16x32768x1 ![0, 1] bcast_S16x32768_S16x32768x1_0_1),
    TRef.nullary main_call0.c_1 (constantI S1 32 127#32),
    TRef.nullary main_call0.c_2 (constantI S_ 32 0#32),
    TRef.unary main_call0.c_2 main_call0.v6 (broadcastInDim S16x32768x1 ![] bcast_S_S16x32768x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16x32768x1 ![0, 1, 2] bcast_S1x1x1_S16x32768x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x32768x1_S16x32768_d2 h_S_),
    TRef.binary (.of main_v0) main_call0.v5 main_call0.v13 (fun x i => Host.gather gather_S128x64_S16x32768x1_S16x32768x64_2_0_n_n_0_2_164 x i),
    TRef.unary main_call0.v12 main_call0.v14 (broadcastInDim S16x32768x64 ![0, 1] bcast_S16x32768_S16x32768x64_0_1),
    TRef.nullary main_call0.cst (constant S_ .f32 0x7FC00000#32),
    TRef.unary main_call0.cst main_call0.v15 (broadcastInDim S16x32768x64 ![] bcast_S_S16x32768x64),
    TRef.ternary main_call0.v14 main_call0.v13 main_call0.v15 main_call0.v16 select,
    unary main_arg3 main_v2 (broadcastInDim S1x1x64 ![2] bcast_S64_S1x1x64_2 : (⟨S64, .f32⟩ : BufTy).Contents (Elt F) → (⟨S1x1x64, .f32⟩ : BufTy).Contents (Elt F)),
    unary main_v2 main_v3 (broadcastInDim S16x32768x64 ![0, 1, 2] bcast_S1x1x64_S16x32768x64_0_1_2 : (⟨S1x1x64, .f32⟩ : BufTy).Contents (Elt F) → (⟨S16x32768x64, .f32⟩ : BufTy).Contents (Elt F)),
    binary main_v1 main_v3 main_v4 (addf : (⟨S16x32768x64, .f32⟩ : BufTy).Contents (Elt F) → (⟨S16x32768x64, .f32⟩ : BufTy).Contents (Elt F) → (⟨S16x32768x64, .f32⟩ : BufTy).Contents (Elt F)),
    binary main_arg0 main_v4 main_v5 ((fun a b => concatenate S16x32768x128 2 [⟨S16x32768x64, a⟩, ⟨S16x32768x64, b⟩] concatenates_S16x32768x64_S16x32768x64_S16x32768x128_d2) : (⟨S16x32768x64, .f32⟩ : BufTy).Contents (Elt F) → (⟨S16x32768x64, .f32⟩ : BufTy).Contents (Elt F) → (⟨S16x32768x128, .f32⟩ : BufTy).Contents (Elt F)) ]

-- twenty-eight binds re-associated
set_option maxRecDepth 1024 in
/-- The program is that line: the two functions' definitions unfolded at their calls, both sides are one chain of
    steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., binary_bufs_sub ..⟩

-- the reduction and the gather stay folded: both sides hold them applied to equal arguments
attribute [local irreducible] Host.reduce Host.gather in
/-- What the result buffer holds after the line: each operation's result at its own buffer is its function's value,
    at any other buffer what was there; the typed references' transports are the identity at these literal
    references, and the composed term is `term` unfolded. -/
theorem out_eq (V : Valuation τ sig (Elt F)) :
    after ops V (Proc.devRef .tc main_v5)
      = term (V (Proc.devRef .tc main_arg0)) (V (Proc.devRef .tc main_arg1)) (V (Proc.devRef .tc main_arg2))
          (V (Proc.devRef .tc main_arg3)) := by
  simp (disch := decide) only [after_cons, after_nil, Cert.LibCat2.cat2_eq,
      nullary_result', unary_result', binary_result', ternary_result',
      nullary_result_ne', unary_result_ne', binary_result_ne', ternary_result_ne']
  rfl

/-! No operation of the line writes an argument's buffer. -/

theorem arg0_eq (V : Valuation τ sig (Elt F)) :
    after ops V (Proc.devRef .tc main_arg0) = V (Proc.devRef .tc main_arg0) := by
  simp (disch := decide) only [after_cons, after_nil, Cert.LibCat2.cat2_eq,
      nullary_result', unary_result', binary_result', ternary_result',
      nullary_result_ne', unary_result_ne', binary_result_ne', ternary_result_ne']

theorem arg1_eq (V : Valuation τ sig (Elt F)) :
    after ops V (Proc.devRef .tc main_arg1) = V (Proc.devRef .tc main_arg1) := by
  simp (disch := decide) only [after_cons, after_nil, Cert.LibCat2.cat2_eq,
      nullary_result', unary_result', binary_result', ternary_result',
      nullary_result_ne', unary_result_ne', binary_result_ne', ternary_result_ne']

theorem arg2_eq (V : Valuation τ sig (Elt F)) :
    after ops V (Proc.devRef .tc main_arg2) = V (Proc.devRef .tc main_arg2) := by
  simp (disch := decide) only [after_cons, after_nil, Cert.LibCat2.cat2_eq,
      nullary_result', unary_result', binary_result', ternary_result',
      nullary_result_ne', unary_result_ne', binary_result_ne', ternary_result_ne']

theorem arg3_eq (V : Valuation τ sig (Elt F)) :
    after ops V (Proc.devRef .tc main_arg3) = V (Proc.devRef .tc main_arg3) := by
  simp (disch := decide) only [after_cons, after_nil, Cert.LibCat2.cat2_eq,
      nullary_result', unary_result', binary_result', ternary_result',
      nullary_result_ne', unary_result_ne', binary_result_ne', ternary_result_ne']

end Line

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v5)
        = term (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact (θ_run defs _ _).mono
    (fun _ h c => ⟨(h c main_v5).trans (out_eq _), (h c main_arg0).trans (arg0_eq _), (h c main_arg1).trans (arg1_eq _),
      (h c main_arg2).trans (arg2_eq _), (h c main_arg3).trans (arg3_eq _)⟩)
    (StableHlo.run_seq scopedRefs_eq scopedSems_eq defs main (fun _ => ops) main_eq (fun _ => ops_sub) m ρ)

end Cert.ReferenceIdeal.Hand

end
-- ==== Proof.RefValue.lean ====
/-
  The reference's term is the specification, where every id is a row number of the table.

  An id below 128 as an unsigned word is non-negative as a signed word, so it is not moved up and lies in `[0, 127]`:
  the bounds test is 1 at every position and the select keeps the gathered row. The gather reads the transposed table
  at (row of the id, column), which is the table at (column, row of the id); the bias broadcast reads the bias at the
  column; and the join along the column axis reads `lc` below column 64 and the sum 64 columns further left above it.
-/
import proofs.«409436_j45595372815055_3_alg».proof.Proof.RefTerm
import proofs.«409436_j45595372815055_3_alg».proof.Proof.Spec
import proofs.«409436_j45595372815055_3_alg».proof.Proof.LibGatherRow
import proofs.«409436_j45595372815055_3_alg».proof.Proof.LibCat2
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Reduce

noncomputable section

namespace Cert.ReferenceIdeal.Hand

open Cert.ReferenceIdeal Idealize.ShloMosaic Idealize.ShloMosaic.ValueIdx
open Cert.ReferenceIdeal.Facts₀

/-! ## Words: an id below 128 read as a signed word -/

/-- A word below 128 is not negative as a signed word. -/
theorem slt_zero_of_lt (v : BitVec 32) (h : v.toNat < 128) : IntOp.cmpi .slt v 0#32 = 0#1 := by
  apply eq_zero_of_ne_one
  intro e
  have := (StableHlo.Predicate.slt_iff_toNat (a := v) (b := 0#32) (by omega) (by decide)).1 e
  simp at this

/-- A word below 128 is at least zero as a signed word. -/
theorem sge_zero_of_lt (v : BitVec 32) (h : v.toNat < 128) : IntOp.cmpi .sge v 0#32 = 1#1 :=
  (StableHlo.Predicate.sge_iff_toNat (a := v) (b := 0#32) (by omega) (by decide)).2 (by simp)

/-- A word below 128 is at most 127 as a signed word. -/
theorem sle_127_of_lt (v : BitVec 32) (h : v.toNat < 128) : IntOp.cmpi .sle v 127#32 = 1#1 :=
  (StableHlo.Predicate.sle_iff_toNat (a := v) (b := 127#32) (by omega) (by decide)).2 (by
    show v.toNat ≤ 127; omega)

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-! ## The reference's intermediate arrays at an index -/

/-- An id in range is not moved. -/
theorem movedIds_apply (ids : IVec S16x32768 32) (p : Fin 16) (q : Fin 32768) (h : (ids (ix2 p q)).toNat < 128) :
    movedIds ids (ix2 p q) = ids (ix2 p q) := by
  show Scalar.select (IntOp.cmpi .slt (ids (ix2 p q)) 0#32) _ _ = _
  rw [slt_zero_of_lt _ h, select_zero]

/-- The one component of a position's index vector is its moved id. -/
theorem startIdx_apply (ids : IVec S16x32768 32) (p : Fin 16) (q : Fin 32768) (u : Fin 1) :
    startIdx ids (ix3 p q u) = movedIds ids (ix2 p q) := by
  unfold startIdx
  exact broadcastInDim_apply _ _ _ _ (ix2 p q) (fun a => match a with | ⟨0, _⟩ => rfl | ⟨1, _⟩ => rfl)

/-- With every id in range, every position is in bounds. -/
theorem inBounds_apply (ids : IVec S16x32768 32) (h : Cert.Spec.InRange ids) (j : S16x32768.Idx) :
    inBounds ids j = 1#1 := by
  unfold inBounds
  rw [Host.reduce_eq_foldl]
  refine foldl_andi_one _ (fun i => ?_) _
  obtain ⟨p, q, u, rfl⟩ : ∃ p q u, i = ix3 p q u := ⟨_, _, _, eq_ix3 i⟩
  show IntOp.andi (IntOp.cmpi .sge (startIdx ids (ix3 p q u)) 0#32) (IntOp.cmpi .sle (startIdx ids (ix3 p q u)) 127#32) = 1#1
  rw [startIdx_apply, movedIds_apply _ _ _ (h _), sge_zero_of_lt _ (h _), sle_127_of_lt _ (h _)]
  rfl

variable {F : FTy → Type} [FloatOps F]

/-- With every id in range, the taken row is the table's column for the id. -/
theorem taken_apply (ids : IVec S16x32768 32) (W : FVec F S64x128 .f32) (h : Cert.Spec.InRange ids)
    (p : Fin 16) (q : Fin 32768) (e : Fin 64) :
    taken ids W (ix3 p q e) = W (ix2 e (Cert.Spec.rowOf (ids (ix2 p q)))) := by
  unfold taken
  rw [select_apply]
  have hb : broadcastInDim S16x32768x64 ![0, 1] bcast_S16x32768_S16x32768x64_0_1 (inBounds ids) (ix3 p q e) = 1#1 := by
    rw [broadcastInDim_apply _ _ _ _ (ix2 p q) (fun a => match a with | ⟨0, _⟩ => rfl | ⟨1, _⟩ => rfl)]
    exact inBounds_apply ids h _
  rw [hb, select_one]
  rw [Cert.LibGatherRow.gather_row3 (N := 128) (by decide) _ rfl rfl rfl rfl rfl]
  rw [startIdx_apply, movedIds_apply _ _ _ (h _)]
  exact transpose_ix2_apply W _ _ _

/-- The bias broadcast reads the bias at the column. -/
theorem biasAll_apply (b : FVec F S64 .f32) (p : Fin 16) (q : Fin 32768) (e : Fin 64) :
    biasAll b (ix3 p q e) = b (ix1 e) := by
  unfold biasAll
  rw [broadcastInDim_apply _ _ _ _ (ix3 (0 : Fin 1) (0 : Fin 1) e)
    (fun a => match a with | ⟨0, _⟩ => rfl | ⟨1, _⟩ => rfl | ⟨2, _⟩ => rfl)]
  exact broadcastInDim_apply _ _ _ _ (ix1 e) (fun a => match a with | ⟨0, _⟩ => rfl)

/-! ## The term is the specification -/

/-- With every id a row number of the table, the reference's term is the specification. -/
theorem term_eq_G (lc : FVec Ideal S16x32768x64 .f32) (ids : IVec S16x32768 32) (W : FVec Ideal S64x128 .f32) (b : FVec Ideal S64 .f32)
    (h : Cert.Spec.InRange ids) : term (F := Ideal) lc ids W b = Cert.Spec.G lc ids W b := by
  funext j
  obtain ⟨p, q, c, rfl⟩ : ∃ p q c, j = ix3 p q c := ⟨_, _, _, eq_ix3 j⟩
  unfold term
  by_cases hc : c.val < 64
  · -- a low column lies in the first piece
    rw [Cert.Spec.G_lo _ _ _ _ p q c hc]
    exact concatenate_pair_apply_left (t := S16x32768x128) (s₁ := S16x32768x64) (s₂ := S16x32768x64) 2 lc
      (addf (taken ids W) (biasAll b)) concatenates_S16x32768x64_S16x32768x64_S16x32768x128_d2 (ix3 p q c) rfl
      (ix3 p q ⟨c.val, hc⟩) (fun a => match a with | ⟨0, _⟩ => rfl | ⟨1, _⟩ => rfl | ⟨2, _⟩ => rfl)
  · -- a high column lies in the second piece, 64 columns further left
    rw [Cert.Spec.G_hi _ _ _ _ p q c hc]
    rw [concatenate_pair_apply_right (t := S16x32768x128) (s₁ := S16x32768x64) (s₂ := S16x32768x64) 2 lc
      (addf (taken ids W) (biasAll b)) concatenates_S16x32768x64_S16x32768x64_S16x32768x128_d2 (ix3 p q c) rfl rfl
      (ix3 p q ⟨c.val - 64, by have := c.isLt; omega⟩)
      (fun a => match a with
        | ⟨0, _⟩ => fun _ => rfl
        | ⟨1, _⟩ => fun _ => rfl
        | ⟨2, _⟩ => fun hne => absurd rfl hne)
      (by show c.val - 64 + 64 = c.val; omega)]
    rw [addf_apply, taken_apply _ _ h, biasAll_apply]
    rfl

end Cert.ReferenceIdeal.Hand

end
-- ==== Proof.lean ====
/-
  A speaker-embedding lookup joined to its input: for `lc : [16, 32768, 64]`, ids `[16, 32768]`, a table
  `W : [64, 128]` and a bias `b : [64]`, the result `[16, 32768, 128]` holds `lc` in columns 0–63 and
  `W (e, id) + b e` in column `64 + e`, `id` the position's speaker id.

  The reference takes rows of the transposed table by index (a negative index counted from the end, an index outside
  the table answered by a fill word). The kernel builds, per block of 128 positions, the 0/1 matrix whose row has its
  one at the id's column, and multiplies it by the transposed table split into a narrow-format part and the remainder
  `Wᵀ − narrow (Wᵀ)`. On the extended reals a change of format is the identity, so the first product picks the row of
  `Wᵀ` and the second picks a row of `x − x`, which is zero because `W` is finite. An id outside `[0, 128)` matches no
  column, so there the kernel leaves the bias alone while the reference wraps or fills: the two agree exactly where
  every id is a row number of the table, which is the stated domain (`0 ≤ ids < 128`), together with finiteness.

  The kernel's value is read off its generated frame run and block-wise value leg: each grid point's sixteen stores are
  one function of its input blocks (KBlock), that function is the specification read through the point's block and the
  32 blocks tile the array (KArray, KHost, KPay). The reference's run is written out operation by operation (RefRun)
  and its term read index by index (RefValue). Both end at the same function `Cert.Spec.G` of the four arguments.
-/
import proofs.«409436_j45595372815055_3_alg».proof.Defs
import proofs.«409436_j45595372815055_3_alg».proof.Proof.Gen.Kernel
import proofs.«409436_j45595372815055_3_alg».proof.Proof.Gen.Kernel.Skeleton
import proofs.«409436_j45595372815055_3_alg».proof.Proof.Gen.Kernel.Loops
import proofs.«409436_j45595372815055_3_alg».proof.Proof.Gen.Kernel.Launch
import proofs.«409436_j45595372815055_3_alg».proof.Proof.Gen.Kernel.Points
import proofs.«409436_j45595372815055_3_alg».proof.Proof.Gen.Kernel.Frame
import proofs.«409436_j45595372815055_3_alg».proof.Proof.Gen.KernelIdeal
import proofs.«409436_j45595372815055_3_alg».proof.Proof.Gen.KernelIdeal.Skeleton
import proofs.«409436_j45595372815055_3_alg».proof.Proof.Gen.KernelIdeal.Loops
import proofs.«409436_j45595372815055_3_alg».proof.Proof.Gen.KernelIdeal.Launch
import proofs.«409436_j45595372815055_3_alg».proof.Proof.Gen.KernelIdeal.Points
import proofs.«409436_j45595372815055_3_alg».proof.Proof.Gen.KernelIdeal.Frame
import proofs.«409436_j45595372815055_3_alg».proof.Proof.Gen.KernelIdeal.Value
import proofs.«409436_j45595372815055_3_alg».proof.Proof.Gen.ReferenceIdeal
import proofs.«409436_j45595372815055_3_alg».proof.Proof.Gen.Pre_finite_inputs
import proofs.«409436_j45595372815055_3_alg».proof.Proof.KArray
import proofs.«409436_j45595372815055_3_alg».proof.Proof.PreFacts
import proofs.«409436_j45595372815055_3_alg».proof.Proof.RefRun
import proofs.«409436_j45595372815055_3_alg».proof.Proof.RefValue
import Idealize.ShloMosaic.Adequacy
import Idealize.ShloMosaic.Init

noncomputable section

namespace Cert.Proof

open Idealize.ShloMosaic Idealize.SL.Sem

/-- The word-level kernel and the idealized kernel run to the end and leave their arguments alone. -/
theorem frame_k : Cert.frame_Kernel := fun m ρ _ => Cert.Kernel.Gen.frame m ρ
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- The idealized kernel is the kernel's own text: no operation was rewritten. -/
theorem preserves : Cert.preserves_Kernel_KernelIdeal := trivial

/-- Where every id is a row number and the table is finite, both programs end at `G` of the arguments. -/
theorem algebraic : Cert.algebraic_KernelIdeal_ReferenceIdeal := by
  intro m ρ m' ρ' hpre hagree
  have hdom : ∀ c : Dev Cert.KernelIdeal.nD,
      Cert.Spec.InRange (Cert.KernelIdeal.Val.idsArr m c) ∧ Cert.Spec.Finite (Cert.KernelIdeal.Val.wArr m c) :=
    fun c => Cert.PreFacts.of_pre _ _ _ _ (hpre c)
  refine ⟨_, Cert.KernelIdeal.Val.run m ρ hdom, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact Cert.ReferenceIdeal.Hand.term_eq_G _ _ _ _ (hdom c).1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
